-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x10 : Shape := ⟨2, ![16, 10]⟩
abbrev S10 : Shape := ⟨1, ![10]⟩
abbrev S65536x128 : Shape := ⟨2, ![65536, 128]⟩
abbrev S65536x512 : Shape := ⟨2, ![65536, 512]⟩
abbrev S65536x64 : Shape := ⟨2, ![65536, 64]⟩
abbrev S65536x32 : Shape := ⟨2, ![65536, 32]⟩
abbrev S65536x16 : Shape := ⟨2, ![65536, 16]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_
  bcast_S_S65536x128 : S_.BroadcastsInDim S65536x128 (![] : Fin 0 → Fin S65536x128.rank)
  reducesTo_S65536x128_S_d0_1 : S65536x128.ReducesTo [0, 1] S_
  bcast_S_S65536x512 : S_.BroadcastsInDim S65536x512 (![] : Fin 0 → Fin S65536x512.rank)
  reducesTo_S65536x512_S_d0_1 : S65536x512.ReducesTo [0, 1] S_
  bcast_S_S65536x64 : S_.BroadcastsInDim S65536x64 (![] : Fin 0 → Fin S65536x64.rank)
  reducesTo_S65536x64_S_d0_1 : S65536x64.ReducesTo [0, 1] S_
  bcast_S_S65536x32 : S_.BroadcastsInDim S65536x32 (![] : Fin 0 → Fin S65536x32.rank)
  reducesTo_S65536x32_S_d0_1 : S65536x32.ReducesTo [0, 1] S_
  bcast_S_S65536x16 : S_.BroadcastsInDim S65536x16 (![] : Fin 0 → Fin S65536x16.rank)
  reducesTo_S65536x16_S_d0_1 : S65536x16.ReducesTo [0, 1] S_

variable [Facts]

def fn_part7 {F : FTy → Type} [FloatOps F] (main_arg25 : FVec F S65536x32 .f32) (main_arg26 : FVec F S65536x16 .f32) (main_v118 : IVec S_ 1) (main_v119 : FVec F S65536x64 .f32) : IVec S_ 1 :=
  let main_cst_46 : FVec F S_ .f32 := constant S_ .f32 0x7F800000#32
  let main_v120 : FVec F S65536x64 .f32 := broadcastInDim S65536x64 ![] bcast_S_S65536x64 main_cst_46
  let main_v121 : IVec S65536x64 1 := cmpf .olt main_v119 main_v120
  let main_c_47 : IVec S_ 1 := constantI S_ 1 1#1
  let main_v122 : IVec S_ 1 := (fun x v => Host.reduce IntOp.andi x v reducesTo_S65536x64_S_d0_1 h_S_) main_v121 main_c_47
  let main_v123 : IVec S_ 1 := andi main_v118 main_v122
  let main_v124 : FVec F S65536x32 .f32 := Host.absf main_arg25
  let main_cst_48 : FVec F S_ .f32 := constant S_ .f32 0x7F800000#32
  let main_v125 : FVec F S65536x32 .f32 := broadcastInDim S65536x32 ![] bcast_S_S65536x32 main_cst_48
  let main_v126 : IVec S65536x32 1 := cmpf .olt main_v124 main_v125
  let main_c_49 : IVec S_ 1 := constantI S_ 1 1#1
  let main_v127 : IVec S_ 1 := (fun x v => Host.reduce IntOp.andi x v reducesTo_S65536x32_S_d0_1 h_S_) main_v126 main_c_49
  let main_v128 : IVec S_ 1 := andi main_v123 main_v127
  let main_v129 : FVec F S65536x16 .f32 := Host.absf main_arg26
  let main_cst_50 : FVec F S_ .f32 := constant S_ .f32 0x7F800000#32
  let main_v130 : FVec F S65536x16 .f32 := broadcastInDim S65536x16 ![] bcast_S_S65536x16 main_cst_50
  let main_v131 : IVec S65536x16 1 := cmpf .olt main_v129 main_v130
  let main_c_51 : IVec S_ 1 := constantI S_ 1 1#1
  let main_v132 : IVec S_ 1 := (fun x v => Host.reduce IntOp.andi x v reducesTo_S65536x16_S_d0_1 h_S_) main_v131 main_c_51
  let main_v133 : IVec S_ 1 := andi main_v128 main_v132
  main_v133

def fn_part6 {F : FTy → Type} [FloatOps F] (main_arg21 : FVec F S65536x512 .f32) (main_arg22 : FVec F S65536x256 .f32) (main_arg23 : FVec F S65536x128 .f32) (main_arg24 : FVec F S65536x64 .f32) (main_arg25 : FVec F S65536x32 .f32) (main_arg26 : FVec F S65536x16 .f32) (main_v98 : IVec S_ 1) (main_v101 : IVec S65536x256 1) (main_c_39 : IVec S_ 1) : IVec S_ 1 :=
  let main_v102 : IVec S_ 1 := (fun x v => Host.reduce IntOp.andi x v reducesTo_S65536x256_S_d0_1 h_S_) main_v101 main_c_39
  let main_v103 : IVec S_ 1 := andi main_v98 main_v102
  let main_v104 : FVec F S65536x512 .f32 := Host.absf main_arg21
  let main_cst_40 : FVec F S_ .f32 := constant S_ .f32 0x7F800000#32
  let main_v105 : FVec F S65536x512 .f32 := broadcastInDim S65536x512 ![] bcast_S_S65536x512 main_cst_40
  let main_v106 : IVec S65536x512 1 := cmpf .olt main_v104 main_v105
  let main_c_41 : IVec S_ 1 := constantI S_ 1 1#1
  let main_v107 : IVec S_ 1 := (fun x v => Host.reduce IntOp.andi x v reducesTo_S65536x512_S_d0_1 h_S_) main_v106 main_c_41
  let main_v108 : IVec S_ 1 := andi main_v103 main_v107
  let main_v109 : FVec F S65536x256 .f32 := Host.absf main_arg22
  let main_cst_42 : FVec F S_ .f32 := constant S_ .f32 0x7F800000#32
  let main_v110 : FVec F S65536x256 .f32 := broadcastInDim S65536x256 ![] bcast_S_S65536x256 main_cst_42
  let main_v111 : IVec S65536x256 1 := cmpf .olt main_v109 main_v110
  let main_c_43 : IVec S_ 1 := constantI S_ 1 1#1
  let main_v112 : IVec S_ 1 := (fun x v => Host.reduce IntOp.andi x v reducesTo_S65536x256_S_d0_1 h_S_) main_v111 main_c_43
  let main_v113 : IVec S_ 1 := andi main_v108 main_v112
  let main_v114 : FVec F S65536x128 .f32 := Host.absf main_arg23
  let main_cst_44 : FVec F S_ .f32 := constant S_ .f32 0x7F800000#32
  let main_v115 : FVec F S65536x128 .f32 := broadcastInDim S65536x128 ![] bcast_S_S65536x128 main_cst_44
  let main_v116 : IVec S65536x128 1 := cmpf .olt main_v114 main_v115
  let main_c_45 : IVec S_ 1 := constantI S_ 1 1#1
  let main_v117 : IVec S_ 1 := (fun x v => Host.reduce IntOp.andi x v reducesTo_S65536x128_S_d0_1 h_S_) main_v116 main_c_45
  let main_v118 : IVec S_ 1 := andi main_v113 main_v117
  let main_v119 : FVec F S65536x64 .f32 := Host.absf main_arg24
  fn_part7 (F := F) main_arg25 main_arg26 main_v118 main_v119

def fn_part5 {F : FTy → Type} [FloatOps F] (main_arg18 : FVec F S10 .f32) (main_arg19 : FVec F S65536x128 .f32) (main_arg20 : FVec F S65536x256 .f32) (main_arg21 : FVec F S65536x512 .f32) (main_arg22 : FVec F S65536x256 .f32) (main_arg23 : FVec F S65536x128 .f32) (main_arg24 : FVec F S65536x64 .f32) (main_arg25 : FVec F S65536x32 .f32) (main_arg26 : FVec F S65536x16 .f32) (main_v83 : IVec S_ 1) (main_v84 : FVec F S16x10 .f32) (main_cst_32 : FVec F S_ .f32) : IVec S_ 1 :=
  let main_v85 : FVec F S16x10 .f32 := broadcastInDim S16x10 ![] bcast_S_S16x10 main_cst_32
  let main_v86 : IVec S16x10 1 := cmpf .olt main_v84 main_v85
  let main_c_33 : IVec S_ 1 := constantI S_ 1 1#1
  let main_v87 : IVec S_ 1 := (fun x v => Host.reduce IntOp.andi x v reducesTo_S16x10_S_d0_1 h_S_) main_v86 main_c_33
  let main_v88 : IVec S_ 1 := andi main_v83 main_v87
  let main_v89 : FVec F S10 .f32 := Host.absf main_arg18
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  let main_v94 : FVec F S65536x128 .f32 := Host.absf main_arg19
  let main_cst_36 : FVec F S_ .f32 := constant S_ .f32 0x7F800000#32
  let main_v95 : FVec F S65536x128 .f32 := broadcastInDim S65536x128 ![] bcast_S_S65536x128 main_cst_36
  let main_v96 : IVec S65536x128 1 := cmpf .olt main_v94 main_v95
  let main_c_37 : IVec S_ 1 := constantI S_ 1 1#1
  let main_v97 : IVec S_ 1 := (fun x v => Host.reduce IntOp.andi x v reducesTo_S65536x128_S_d0_1 h_S_) main_v96 main_c_37
  let main_v98 : IVec S_ 1 := andi main_v93 main_v97
  let main_v99 : FVec F S65536x256 .f32 := Host.absf main_arg20
  let main_cst_38 : FVec F S_ .f32 := constant S_ .f32 0x7F800000#32
  let main_v100 : FVec F S65536x256 .f32 := broadcastInDim S65536x256 ![] bcast_S_S65536x256 main_cst_38
  let main_v101 : IVec S65536x256 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S32 .f32) (main_arg15 : FVec F S32x16 .f32) (main_arg16 : FVec F S16 .f32) (main_arg17 : FVec F S16x10 .f32) (main_arg18 : FVec F S10 .f32) (main_arg19 : FVec F S65536x128 .f32) (main_arg20 : FVec F S65536x256 .f32) (main_arg21 : FVec F S65536x512 .f32) (main_arg22 : FVec F S65536x256 .f32) (main_arg23 : FVec F S65536x128 .f32) (main_arg24 : FVec F S65536x64 .f32) (main_arg25 : FVec F S65536x32 .f32) (main_arg26 : FVec F S65536x16 .f32) (main_v63 : IVec S_ 1) (main_v67 : IVec S_ 1) : IVec S_ 1 :=
  let main_v68 : IVec S_ 1 := andi main_v63 main_v67
  let main_v69 : FVec F S32 .f32 := Host.absf main_arg14
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x16 .f32 := Host.absf main_arg15
  let main_cst_28 : FVec F S_ .f32 := constant S_ .f32 0x7F800000#32
  let main_v75 : FVec F S32x16 .f32 := broadcastInDim S32x16 ![] bcast_S_S32x16 main_cst_28
  let main_v76 : IVec S32x16 1 := cmpf .olt main_v74 main_v75
  let main_c_29 : IVec S_ 1 := constantI S_ 1 1#1
  let main_v77 : IVec S_ 1 := (fun x v => Host.reduce IntOp.andi x v reducesTo_S32x16_S_d0_1 h_S_) main_v76 main_c_29
  let main_v78 : IVec S_ 1 := andi main_v73 main_v77
  let main_v79 : FVec F S16 .f32 := Host.absf main_arg16
  let main_cst_30 : FVec F S_ .f32 := constant S_ .f32 0x7F800000#32
  let main_v80 : FVec F S16 .f32 := broadcastInDim S16 ![] bcast_S_S16 main_cst_30
  let main_v81 : IVec S16 1 := cmpf .olt main_v79 main_v80
  let main_c_31 : IVec S_ 1 := constantI S_ 1 1#1
  let main_v82 : IVec S_ 1 := (fun x v => Host.reduce IntOp.andi x v reducesTo_S16_S_d0 h_S_) main_v81 main_c_31
  let main_v83 : IVec S_ 1 := andi main_v78 main_v82
  let main_v84 : FVec F S16x10 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S128x64 .f32) (main_arg12 : FVec F S64 .f32) (main_arg13 : FVec F S64x32 .f32) (main_arg14 : FVec F S32 .f32) (main_arg15 : FVec F S32x16 .f32) (main_arg16 : FVec F S16 .f32) (main_arg17 : FVec F S16x10 .f32) (main_arg18 : FVec F S10 .f32) (main_arg19 : FVec F S65536x128 .f32) (main_arg20 : FVec F S65536x256 .f32) (main_arg21 : FVec F S65536x512 .f32) (main_arg22 : FVec F S65536x256 .f32) (main_arg23 : FVec F S65536x128 .f32) (main_arg24 : FVec F S65536x64 .f32) (main_arg25 : FVec F S65536x32 .f32) (main_arg26 : FVec F S65536x16 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg11
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x32 .f32 := Host.absf main_arg13
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S512x256 .f32) (main_arg8 : FVec F S256 .f32) (main_arg9 : FVec F S256x128 .f32) (main_arg10 : FVec F S128 .f32) (main_arg11 : FVec F S128x64 .f32) (main_arg12 : FVec F S64 .f32) (main_arg13 : FVec F S64x32 .f32) (main_arg14 : FVec F S32 .f32) (main_arg15 : FVec F S32x16 .f32) (main_arg16 : FVec F S16 .f32) (main_arg17 : FVec F S16x10 .f32) (main_arg18 : FVec F S10 .f32) (main_arg19 : FVec F S65536x128 .f32) (main_arg20 : FVec F S65536x256 .f32) (main_arg21 : FVec F S65536x512 .f32) (main_arg22 : FVec F S65536x256 .f32) (main_arg23 : FVec F S65536x128 .f32) (main_arg24 : FVec F S65536x64 .f32) (main_arg25 : FVec F S65536x32 .f32) (main_arg26 : FVec F S65536x16 .f32) (main_v33 : IVec S_ 1) : IVec S_ 1 :=
  let main_v34 : FVec F S512x256 .f32 := Host.absf main_arg7
  let main_cst_12 : FVec F S_ .f32 := constant S_ .f32 0x7F800000#32
  let main_v35 : FVec F S512x256 .f32 := broadcastInDim S512x256 ![] bcast_S_S512x256 main_cst_12
  let main_v36 : IVec S512x256 1 := cmpf .olt main_v34 main_v35
  let main_c_13 : IVec S_ 1 := constantI S_ 1 1#1
  let main_v37 : IVec S_ 1 := (fun x v => Host.reduce IntOp.andi x v reducesTo_S512x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg9
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S256 .f32) (main_arg5 : FVec F S256x512 .f32) (main_arg6 : FVec F S512 .f32) (main_arg7 : FVec F S512x256 .f32) (main_arg8 : FVec F S256 .f32) (main_arg9 : FVec F S256x128 .f32) (main_arg10 : FVec F S128 .f32) (main_arg11 : FVec F S128x64 .f32) (main_arg12 : FVec F S64 .f32) (main_arg13 : FVec F S64x32 .f32) (main_arg14 : FVec F S32 .f32) (main_arg15 : FVec F S32x16 .f32) (main_arg16 : FVec F S16 .f32) (main_arg17 : FVec F S16x10 .f32) (main_arg18 : FVec F S10 .f32) (main_arg19 : FVec F S65536x128 .f32) (main_arg20 : FVec F S65536x256 .f32) (main_arg21 : FVec F S65536x512 .f32) (main_arg22 : FVec F S65536x256 .f32) (main_arg23 : FVec F S65536x128 .f32) (main_arg24 : FVec F S65536x64 .f32) (main_arg25 : FVec F S65536x32 .f32) (main_arg26 : FVec F S65536x16 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S65536x256 .f32) (main_arg1 : FVec F S256x128 .f32) (main_arg2 : FVec F S128 .f32) (main_arg3 : FVec F S128x256 .f32) (main_arg4 : FVec F S256 .f32) (main_arg5 : FVec F S256x512 .f32) (main_arg6 : FVec F S512 .f32) (main_arg7 : FVec F S512x256 .f32) (main_arg8 : FVec F S256 .f32) (main_arg9 : FVec F S256x128 .f32) (main_arg10 : FVec F S128 .f32) (main_arg11 : FVec F S128x64 .f32) (main_arg12 : FVec F S64 .f32) (main_arg13 : FVec F S64x32 .f32) (main_arg14 : FVec F S32 .f32) (main_arg15 : FVec F S32x16 .f32) (main_arg16 : FVec F S16 .f32) (main_arg17 : FVec F S16x10 .f32) (main_arg18 : FVec F S10 .f32) (main_arg19 : FVec F S65536x128 .f32) (main_arg20 : FVec F S65536x256 .f32) (main_arg21 : FVec F S65536x512 .f32) (main_arg22 : FVec F S65536x256 .f32) (main_arg23 : FVec F S65536x128 .f32) (main_arg24 : FVec F S65536x64 .f32) (main_arg25 : FVec F S65536x32 .f32) (main_arg26 : FVec F S65536x16 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S65536x256 : Shape := ⟨2, ![65536, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x10 : Shape := ⟨2, ![16, 10]⟩
abbrev S10 : Shape := ⟨1, ![10]⟩
abbrev S65536x128 : Shape := ⟨2, ![65536, 128]⟩
abbrev S65536x512 : Shape := ⟨2, ![65536, 512]⟩
abbrev S65536x64 : Shape := ⟨2, ![65536, 64]⟩
abbrev S65536x32 : Shape := ⟨2, ![65536, 32]⟩
abbrev S65536x16 : Shape := ⟨2, ![65536, 16]⟩
abbrev S65536x10 : Shape := ⟨2, ![65536, 10]⟩
abbrev S1024x256 : Shape := ⟨2, ![1024, 256]⟩
abbrev S1024x128 : Shape := ⟨2, ![1024, 128]⟩
abbrev S1024x512 : Shape := ⟨2, ![1024, 512]⟩
abbrev S1024x64 : Shape := ⟨2, ![1024, 64]⟩
abbrev S1024x32 : Shape := ⟨2, ![1024, 32]⟩
abbrev S1024x16 : Shape := ⟨2, ![1024, 16]⟩
abbrev S1024x10 : Shape := ⟨2, ![1024, 10]⟩
abbrev S1x128 : Shape := ⟨2, ![1, 128]⟩
abbrev S1x256 : Shape := ⟨2, ![1, 256]⟩
abbrev S1x512 : Shape := ⟨2, ![1, 512]⟩
abbrev S1x64 : Shape := ⟨2, ![1, 64]⟩
abbrev S1x32 : Shape := ⟨2, ![1, 32]⟩
abbrev S1x16 : Shape := ⟨2, ![1, 16]⟩
abbrev S1x10 : Shape := ⟨2, ![1, 10]⟩

abbrev nBuf : Space → Nat
  | .hbm => 28
  | .vmem => 38
  | .smem => 0
  | _ => 0

abbrev bufTy : (tb : Table) → Fin (tcTables nBuf tb) → BufTy
  | .hbm, ⟨0, _⟩ => ⟨S65536x256, .f32⟩
  | .hbm, ⟨1, _⟩ => ⟨S256x128, .f32⟩
  | .hbm, ⟨2, _⟩ => ⟨S128, .f32⟩
  | .hbm, ⟨3, _⟩ => ⟨S128x256, .f32⟩
  | .hbm, ⟨4, _⟩ => ⟨S256, .f32⟩
  | .hbm, ⟨5, _⟩ => ⟨S256x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x32, .f32⟩
  | .hbm, ⟨14, _⟩ => ⟨S32, .f32⟩
  | .hbm, ⟨15, _⟩ => ⟨S32x16, .f32⟩
  | .hbm, ⟨16, _⟩ => ⟨S16, .f32⟩
  | .hbm, ⟨17, _⟩ => ⟨S16x10, .f32⟩
  | .hbm, ⟨18, _⟩ => ⟨S10, .f32⟩
  | .hbm, ⟨19, _⟩ => ⟨S65536x128, .f32⟩
  | .hbm, ⟨20, _⟩ => ⟨S65536x256, .f32⟩
  | .hbm, ⟨21, _⟩ => ⟨S65536x512, .f32⟩
  | .hbm, ⟨22, _⟩ => ⟨S65536x256, .f32⟩
  | .hbm, ⟨23, _⟩ => ⟨S65536x128, .f32⟩
  | .hbm, ⟨24, _⟩ => ⟨S65536x64, .f32⟩
  | .hbm, ⟨25, _⟩ => ⟨S65536x32, .f32⟩
  | .hbm, ⟨26, _⟩ => ⟨S65536x16, .f32⟩
  | .hbm, ⟨27, _⟩ => ⟨S65536x10, .f32⟩
  | .local _ .vmem, ⟨0, _⟩ => ⟨S1024x256, .f32⟩
  | .local _ .vmem, ⟨1, _⟩ => ⟨S1024x256, .f32⟩
  | .local _ .vmem, ⟨2, _⟩ => ⟨S256x128, .f32⟩
  | .local _ .vmem, ⟨3, _⟩ => ⟨S128, .f32⟩
  | .local _ .vmem, ⟨4, _⟩ => ⟨S128x256, .f32⟩
  | .local _ .vmem, ⟨5, _⟩ => ⟨S256, .f32⟩
  | .local _ .vmem, ⟨6, _⟩ => ⟨S256x512, .f32⟩
  | .local _ .vmem, ⟨7, _⟩ => ⟨S512, .f32⟩
  | .local _ .vmem, ⟨8, _⟩ => ⟨S512x256, .f32⟩
  | .local _ .vmem, ⟨9, _⟩ => ⟨S256, .f32⟩
  | .local _ .vmem, ⟨10, _⟩ => ⟨S256x128, .f32⟩
  | .local _ .vmem, ⟨11, _⟩ => ⟨S128, .f32⟩
  | .local _ .vmem, ⟨12, _⟩ => ⟨S128x64, .f32⟩
  | .local _ .vmem, ⟨13, _⟩ => ⟨S64, .f32⟩
  | .local _ .vmem, ⟨14, _⟩ => ⟨S64x32, .f32⟩
  | .local _ .vmem, ⟨15, _⟩ => ⟨S32, .f32⟩
  | .local _ .vmem, ⟨16, _⟩ => ⟨S32x16, .f32⟩
  | .local _ .vmem, ⟨17, _⟩ => ⟨S16, .f32⟩
  | .local _ .vmem, ⟨18, _⟩ => ⟨S16x10, .f32⟩
  | .local _ .vmem, ⟨19, _⟩ => ⟨S10, .f32⟩
  | .local _ .vmem, ⟨20, _⟩ => ⟨S1024x128, .f32⟩
  | .local _ .vmem, ⟨21, _⟩ => ⟨S1024x128, .f32⟩
  | .local _ .vmem, ⟨22, _⟩ => ⟨S1024x256, .f32⟩
  | .local _ .vmem, ⟨23, _⟩ => ⟨S1024x256, .f32⟩
  | .local _ .vmem, ⟨24, _⟩ => ⟨S1024x512, .f32⟩
  | .local _ .vmem, ⟨25, _⟩ => ⟨S1024x512, .f32⟩
  | .local _ .vmem, ⟨26, _⟩ => ⟨S1024x256, .f32⟩
  | .local _ .vmem, ⟨27, _⟩ => ⟨S1024x256, .f32⟩
  | .local _ .vmem, ⟨28, _⟩ => ⟨S1024x128, .f32⟩
  | .local _ .vmem, ⟨29, _⟩ => ⟨S1024x128, .f32⟩
  | .local _ .vmem, ⟨30, _⟩ => ⟨S1024x64, .f32⟩
  | .local _ .vmem, ⟨31, _⟩ => ⟨S1024x64, .f32⟩
  | .local _ .vmem, ⟨32, _⟩ => ⟨S1024x32, .f32⟩
  | .local _ .vmem, ⟨33, _⟩ => ⟨S1024x32, .f32⟩
  | .local _ .vmem, ⟨34, _⟩ => ⟨S1024x16, .f32⟩
  | .local _ .vmem, ⟨35, _⟩ => ⟨S1024x16, .f32⟩
  | .local _ .vmem, ⟨36, _⟩ => ⟨S1024x10, .f32⟩
  | .local _ .vmem, ⟨37, _⟩ => ⟨S1024x10, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg19_1 : Ref sig .tc := ⟨.vmem, 21, rfl⟩
abbrev cc0_stg20_0 : Ref sig .tc := ⟨.vmem, 22, rfl⟩
abbrev cc0_stg20_1 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc0_stg24_0 : Ref sig .tc := ⟨.vmem, 30, rfl⟩
abbrev cc0_stg24_1 : Ref sig .tc := ⟨.vmem, 31, rfl⟩
abbrev cc0_stg25_0 : Ref sig .tc := ⟨.vmem, 32, rfl⟩
abbrev cc0_stg25_1 : Ref sig .tc := ⟨.vmem, 33, rfl⟩
abbrev cc0_stg26_0 : Ref sig .tc := ⟨.vmem, 34, rfl⟩
abbrev cc0_stg26_1 : Ref sig .tc := ⟨.vmem, 35, rfl⟩
abbrev cc0_stg27_0 : Ref sig .tc := ⟨.vmem, 36, rfl⟩
abbrev cc0_stg27_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem19_1 : DmaSem sig := 21
abbrev cc0_sem20_0 : DmaSem sig := 22
abbrev cc0_sem20_1 : DmaSem sig := 23
abbrev cc0_sem21_0 : DmaSem sig := 24
abbrev cc0_sem21_1 : DmaSem sig := 25
abbrev cc0_sem22_0 : DmaSem sig := 26
abbrev cc0_sem22_1 : DmaSem sig := 27
abbrev cc0_sem23_0 : DmaSem sig := 28
abbrev cc0_sem23_1 : DmaSem sig := 29
abbrev cc0_sem24_0 : DmaSem sig := 30
abbrev cc0_sem24_1 : DmaSem sig := 31
abbrev cc0_sem25_0 : DmaSem sig := 32
abbrev cc0_sem25_1 : DmaSem sig := 33
abbrev cc0_sem26_0 : DmaSem sig := 34
abbrev cc0_sem26_1 : DmaSem sig := 35
abbrev cc0_sem27_0 : DmaSem sig := 36
abbrev cc0_sem27_1 : DmaSem sig := 37

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S32x16 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x10 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S10 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S1024x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1024x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1024x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1024x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1024x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1024x64 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1024x32 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1024x16 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1024x10 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  inb_S256x512_S256x512_0_0 : ∀ a, (![0, 0] : Fin 2 → Nat) a + S256x512.size a ≤ S256x512.size a
  h_S256x512 : 0 < S256x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  inb_S512x256_S512x256_0_0 : ∀ a, (![0, 0] : Fin 2 → Nat) a + S512x256.size a ≤ S512x256.size a
  h_S512x256 : 0 < S512x256.numel
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S1024x32 : S1x32.Broadcasts S1024x32
  inb_S1024x32_S1024x32_0_0 : ∀ a, (![0, 0] : Fin 2 → Nat) a + S1024x32.size a ≤ S1024x32.size a
  h_S1024x32 : 0 < S1024x32.numel
  inb_S32x16_S32x16_0_0 : ∀ a, (![0, 0] : Fin 2 → Nat) a + S32x16.size a ≤ S32x16.size a
  h_S32x16 : 0 < S32x16.numel
  inb_S16_S16_0 : ∀ a, (![0] : Fin 1 → Nat) a + S16.size a ≤ S16.size a
  h_S16 : 0 < S16.numel
  shapeCasts_S16_S1x16 : S16.ShapeCasts S1x16
  broadcasts_S1x16_S1024x16 : S1x16.Broadcasts S1024x16
  inb_S1024x16_S1024x16_0_0 : ∀ a, (![0, 0] : Fin 2 → Nat) a + S1024x16.size a ≤ S1024x16.size a
  h_S1024x16 : 0 < S1024x16.numel
  inb_S16x10_S16x10_0_0 : ∀ a, (![0, 0] : Fin 2 → Nat) a + S16x10.size a ≤ S16x10.size a
  h_S16x10 : 0 < S16x10.numel
  inb_S10_S10_0 : ∀ a, (![0] : Fin 1 → Nat) a + S10.size a ≤ S10.size a
  h_S10 : 0 < S10.numel
  shapeCasts_S10_S1x10 : S10.ShapeCasts S1x10
  broadcasts_S1x10_S1024x10 : S1x10.Broadcasts S1024x10
  inb_S1024x10_S1024x10_0_0 : ∀ a, (![0, 0] : Fin 2 → Nat) a + S1024x10.size a ≤ S1024x10.size a
  h_S1024x10 : 0 < S1024x10.numel
  dot_S1024x256_S256x128_S1024x128_1_0_0_1_n_n_wf : DotDims.WF S1024x256 S256x128 S1024x128 [1] [0] [0] [1] [] []
  dot_S1024x128_S128x256_S1024x256_1_0_0_1_n_n_wf : DotDims.WF S1024x128 S128x256 S1024x256 [1] [0] [0] [1] [] []
  dot_S1024x256_S256x512_S1024x512_1_0_0_1_n_n_wf : DotDims.WF S1024x256 S256x512 S1024x512 [1] [0] [0] [1] [] []
  dot_S1024x512_S512x256_S1024x256_1_0_0_1_n_n_wf : DotDims.WF S1024x512 S512x256 S1024x256 [1] [0] [0] [1] [] []
  dot_S1024x128_S128x64_S1024x64_1_0_0_1_n_n_wf : DotDims.WF S1024x128 S128x64 S1024x64 [1] [0] [0] [1] [] []
  dot_S1024x64_S64x32_S1024x32_1_0_0_1_n_n_wf : DotDims.WF S1024x64 S64x32 S1024x32 [1] [0] [0] [1] [] []
  dot_S1024x32_S32x16_S1024x16_1_0_0_1_n_n_wf : DotDims.WF S1024x32 S32x16 S1024x16 [1] [0] [0] [1] [] []
  dot_S1024x16_S16x10_S1024x10_1_0_0_1_n_n_wf : DotDims.WF S1024x16 S16x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S256x512.size a
  hwx0_5 : ∀ i : grid0.Coords, EltTy.bits .f32 = 32 ∨ (Rect.block (s := S256x512) S256x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .f32 = 32 ∨ (Rect.block (s := S512x256) S512x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .f32 = 32 ∨ (Rect.block (s := S256x128) S256x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x64.size a ≤ S128x64.size a
  hwx0_11 : ∀ i : grid0.Coords, EltTy.bits .f32 = 32 ∨ (Rect.block (s := S128x64) S128x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x32.size a ≤ S64x32.size a
  hwx0_13 : ∀ i : grid0.Coords, EltTy.bits .f32 = 32 ∨ (Rect.block (s := S64x32) S64x32.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S32.size a ≤ S32.size a
  hwx0_14 : ∀ i : grid0.Coords, EltTy.bits .f32 = 32 ∨ (Rect.block (s := S32) S32.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S32x16.size a ≤ S32x16.size a
  hwx0_15 : ∀ i : grid0.Coords, EltTy.bits .f32 = 32 ∨ (Rect.block (s := S32x16) S32x16.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S16.size a ≤ S16.size a
  hwx0_16 : ∀ i : grid0.Coords, EltTy.bits .f32 = 32 ∨ (Rect.block (s := S16) S16.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S16x10.size a ≤ S16x10.size a
  hwx0_17 : ∀ i : grid0.Coords, EltTy.bits .f32 = 32 ∨ (Rect.block (s := S16x10) S16x10.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S10.size a ≤ S10.size a
  hwx0_18 : ∀ i : grid0.Coords, EltTy.bits .f32 = 32 ∨ (Rect.block (s := S10) S10.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1024x128.size a ≤ S65536x128.size a
  hwx0_19 : ∀ i : grid0.Coords, EltTy.bits .f32 = 32 ∨ (Rect.block (s := S65536x128) S1024x128.size (cc0_transform_19 i) (hinb0_19 i)).WholeWords (EltTy.packing .f32)
  hstage0_20 : ∀ j, (stage0_20 j).IsWhole
  nbuf0_20 : grid0.bufCount reads0_20 false = 2
  hreads0_20 : ∀ i i' : grid0.Coords, (∀ a, reads0_20 a = true → i a = i' a) → cc0_transform_20 i = cc0_transform_20 i'
  hinb0_20 : ∀ (i : grid0.Coords) a, (cc0_transform_20 i a + 1) * S1024x256.size a ≤ S65536x256.size a
  hwx0_20 : ∀ i : grid0.Coords, EltTy.bits .f32 = 32 ∨ (Rect.block (s := S65536x256) S1024x256.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S1024x512.size a ≤ S65536x512.size a
  hwx0_21 : ∀ i : grid0.Coords, EltTy.bits .f32 = 32 ∨ (Rect.block (s := S65536x512) S1024x512.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S1024x256.size a ≤ S65536x256.size a
  hwx0_22 : ∀ i : grid0.Coords, EltTy.bits .f32 = 32 ∨ (Rect.block (s := S65536x256) S1024x256.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S1024x128.size a ≤ S65536x128.size a
  hwx0_23 : ∀ i : grid0.Coords, EltTy.bits .f32 = 32 ∨ (Rect.block (s := S65536x128) S1024x128.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S1024x64.size a ≤ S65536x64.size a
  hwx0_24 : ∀ i : grid0.Coords, EltTy.bits .f32 = 32 ∨ (Rect.block (s := S65536x64) S1024x64.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S1024x32.size a ≤ S65536x32.size a
  hwx0_25 : ∀ i : grid0.Coords, EltTy.bits .f32 = 32 ∨ (Rect.block (s := S65536x32) S1024x32.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S1024x16.size a ≤ S65536x16.size a
  hwx0_26 : ∀ i : grid0.Coords, EltTy.bits .f32 = 32 ∨ (Rect.block (s := S65536x16) S1024x16.size (cc0_transform_26 i) (hinb0_26 i)).WholeWords (EltTy.packing .f32)
  hstage0_27 : ∀ j, (stage0_27 j).IsWhole
  nbuf0_27 : grid0.bufCount reads0_27 false = 2
  hreads0_27 : ∀ i i' : grid0.Coords, (∀ a, reads0_27 a = true → i a = i' a) → cc0_transform_27 i = cc0_transform_27 i'
  hinb0_27 : ∀ (i : grid0.Coords) a, (cc0_transform_27 i a + 1) * S1024x10.size a ≤ S65536x10.size a
  hwx0_27 : ∀ i : grid0.Coords, EltTy.bits .f32 = 32 ∨ (Rect.block (s := S65536x10) S1024x10.size (cc0_transform_27 i) (hinb0_27 i)).WholeWords (EltTy.packing .f32)

variable [Facts₀]

def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x32_S1024x32_1_0_0_1_n_n : DotDims S1024x64 S64x32 S1024x32 where
  lhsContracting := [1]
  rhsContracting := [0]
  lhsNonContracting := [0]
  rhsNonContracting := [1]
  lhsBatch := []
  rhsBatch := []
  wf := dot_S1024x64_S64x32_S1024x32_1_0_0_1_n_n_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def dot_S1024x16_S16x10_S1024x10_1_0_0_1_n_n : DotDims S1024x16 S16x10 S1024x10 where
  lhsContracting := [1]
  rhsContracting := [0]
  lhsNonContracting := [0]
  rhsNonContracting := [1]
  lhsBatch := []
  rhsBatch := []
  wf := dot_S1024x16_S16x10_S1024x10_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64x32.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S32.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S32x16.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S16.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S16x10.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S10.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S1024x128.size cc0_transform_19 reads0_19 false false 2 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S1024x256.size cc0_transform_20 reads0_20 false false 2 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S1024x512.size cc0_transform_21 reads0_21 false false 2 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S1024x256.size cc0_transform_22 reads0_22 false false 2 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S1024x128.size cc0_transform_23 reads0_23 false false 2 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S1024x64.size cc0_transform_24 reads0_24 false false 2 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S1024x32.size cc0_transform_25 reads0_25 false false 2 stage0_25 sem0_25
    hrank0 hreads0_25 hinb0_25 nbuf0_25 (Memref.isWhole_whole _) hwx0_25 hstage0_25

abbrev win0_26 : Pipeline.Window sig grid0 :=
  Pipeline.Window.ofSpec (Memref.whole main_arg26) S1024x16.size cc0_transform_26 reads0_26 false false 2 stage0_26 sem0_26
    hrank0 hreads0_26 hinb0_26 nbuf0_26 (Memref.isWhole_whole _) hwx0_26 hstage0_26

abbrev win0_27 : Pipeline.Window sig grid0 :=
  Pipeline.Window.ofSpec (Memref.whole main_v0) S1024x10.size cc0_transform_27 reads0_27 true false 2 stage0_27 sem0_27
    hrank0 hreads0_27 hinb0_27 nbuf0_27 (Memref.isWhole_whole _) hwx0_27 hstage0_27

abbrev win0 : Fin 28 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | ⟨_ + 28, h⟩ => absurd h (Nat.not_lt.2 (Nat.le_add_left _ _))
abbrev spec0 : Fin 28 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S512x256 : Shape := ⟨2, ![512, 256]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S16x10 : Shape := ⟨2, ![16, 10]⟩
abbrev S10 : Shape := ⟨1, ![10]⟩
abbrev S65536x128 : Shape := ⟨2, ![65536, 128]⟩
abbrev S65536x512 : Shape := ⟨2, ![65536, 512]⟩
abbrev S65536x64 : Shape := ⟨2, ![65536, 64]⟩
abbrev S65536x32 : Shape := ⟨2, ![65536, 32]⟩
abbrev S65536x16 : Shape := ⟨2, ![65536, 16]⟩
abbrev S1x128 : Shape := ⟨2, ![1, 128]⟩
abbrev S_ : Shape := ⟨0, ![]⟩
abbrev S1x256 : Shape := ⟨2, ![1, 256]⟩
abbrev S1x512 : Shape := ⟨2, ![1, 512]⟩
abbrev S1x64 : Shape := ⟨2, ![1, 64]⟩
abbrev S1x32 : Shape := ⟨2, ![1, 32]⟩
abbrev S1x16 : Shape := ⟨2, ![1, 16]⟩
abbrev S65536x10 : Shape := ⟨2, ![65536, 10]⟩
abbrev S1x10 : Shape := ⟨2, ![1, 10]⟩

abbrev nBuf : Space → Nat
  | .hbm => 95
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S256x128, .f32⟩
  | .hbm, ⟨2, _⟩ => ⟨S128, .f32⟩
  | .hbm, ⟨3, _⟩ => ⟨S128x256, .f32⟩
  | .hbm, ⟨4, _⟩ => ⟨S256, .f32⟩
  | .hbm, ⟨5, _⟩ => ⟨S256x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x32, .f32⟩
  | .hbm, ⟨14, _⟩ => ⟨S32, .f32⟩
  | .hbm, ⟨15, _⟩ => ⟨S32x16, .f32⟩
  | .hbm, ⟨16, _⟩ => ⟨S16, .f32⟩
  | .hbm, ⟨17, _⟩ => ⟨S16x10, .f32⟩
  | .hbm, ⟨18, _⟩ => ⟨S10, .f32⟩
  | .hbm, ⟨19, _⟩ => ⟨S65536x128, .f32⟩
  | .hbm, ⟨20, _⟩ => ⟨S65536x256, .f32⟩
  | .hbm, ⟨21, _⟩ => ⟨S65536x512, .f32⟩
  | .hbm, ⟨22, _⟩ => ⟨S65536x256, .f32⟩
  | .hbm, ⟨23, _⟩ => ⟨S65536x128, .f32⟩
  | .hbm, ⟨24, _⟩ => ⟨S65536x64, .f32⟩
  | .hbm, ⟨25, _⟩ => ⟨S65536x32, .f32⟩
  | .hbm, ⟨26, _⟩ => ⟨S65536x16, .f32⟩
  | .hbm, ⟨27, _⟩ => ⟨S65536x128, .f32⟩
  | .hbm, ⟨28, _⟩ => ⟨S1x128, .f32⟩
  | .hbm, ⟨29, _⟩ => ⟨S65536x128, .f32⟩
  | .hbm, ⟨30, _⟩ => ⟨S65536x128, .f32⟩
  | .hbm, ⟨31, _⟩ => ⟨S_, .f32⟩
  | .hbm, ⟨32, _⟩ => ⟨S65536x128, .f32⟩
  | .hbm, ⟨33, _⟩ => ⟨S65536x128, .f32⟩
  | .hbm, ⟨34, _⟩ => ⟨S65536x128, .f32⟩
  | .hbm, ⟨35, _⟩ => ⟨S65536x256, .f32⟩
  | .hbm, ⟨36, _⟩ => ⟨S1x256, .f32⟩
  | .hbm, ⟨37, _⟩ => ⟨S65536x256, .f32⟩
  | .hbm, ⟨38, _⟩ => ⟨S65536x256, .f32⟩
  | .hbm, ⟨39, _⟩ => ⟨S_, .f32⟩
  | .hbm, ⟨40, _⟩ => ⟨S65536x256, .f32⟩
  | .hbm, ⟨41, _⟩ => ⟨S65536x256, .f32⟩
  | .hbm, ⟨42, _⟩ => ⟨S65536x256, .f32⟩
  | .hbm, ⟨43, _⟩ => ⟨S65536x512, .f32⟩
  | .hbm, ⟨44, _⟩ => ⟨S1x512, .f32⟩
  | .hbm, ⟨45, _⟩ => ⟨S65536x512, .f32⟩
  | .hbm, ⟨46, _⟩ => ⟨S65536x512, .f32⟩
  | .hbm, ⟨47, _⟩ => ⟨S_, .f32⟩
  | .hbm, ⟨48, _⟩ => ⟨S65536x512, .f32⟩
  | .hbm, ⟨49, _⟩ => ⟨S65536x512, .f32⟩
  | .hbm, ⟨50, _⟩ => ⟨S65536x512, .f32⟩
  | .hbm, ⟨51, _⟩ => ⟨S65536x256, .f32⟩
  | .hbm, ⟨52, _⟩ => ⟨S1x256, .f32⟩
  | .hbm, ⟨53, _⟩ => ⟨S65536x256, .f32⟩
  | .hbm, ⟨54, _⟩ => ⟨S65536x256, .f32⟩
  | .hbm, ⟨55, _⟩ => ⟨S_, .f32⟩
  | .hbm, ⟨56, _⟩ => ⟨S65536x256, .f32⟩
  | .hbm, ⟨57, _⟩ => ⟨S65536x256, .f32⟩
  | .hbm, ⟨58, _⟩ => ⟨S65536x256, .f32⟩
  | .hbm, ⟨59, _⟩ => ⟨S65536x128, .f32⟩
  | .hbm, ⟨60, _⟩ => ⟨S1x128, .f32⟩
  | .hbm, ⟨61, _⟩ => ⟨S65536x128, .f32⟩
  | .hbm, ⟨62, _⟩ => ⟨S65536x128, .f32⟩
  | .hbm, ⟨63, _⟩ => ⟨S_, .f32⟩
  | .hbm, ⟨64, _⟩ => ⟨S65536x128, .f32⟩
  | .hbm, ⟨65, _⟩ => ⟨S65536x128, .f32⟩
  | .hbm, ⟨66, _⟩ => ⟨S65536x128, .f32⟩
  | .hbm, ⟨67, _⟩ => ⟨S65536x64, .f32⟩
  | .hbm, ⟨68, _⟩ => ⟨S1x64, .f32⟩
  | .hbm, ⟨69, _⟩ => ⟨S65536x64, .f32⟩
  | .hbm, ⟨70, _⟩ => ⟨S65536x64, .f32⟩
  | .hbm, ⟨71, _⟩ => ⟨S_, .f32⟩
  | .hbm, ⟨72, _⟩ => ⟨S65536x64, .f32⟩
  | .hbm, ⟨73, _⟩ => ⟨S65536x64, .f32⟩
  | .hbm, ⟨74, _⟩ => ⟨S65536x64, .f32⟩
  | .hbm, ⟨75, _⟩ => ⟨S65536x32, .f32⟩
  | .hbm, ⟨76, _⟩ => ⟨S1x32, .f32⟩
  | .hbm, ⟨77, _⟩ => ⟨S65536x32, .f32⟩
  | .hbm, ⟨78, _⟩ => ⟨S65536x32, .f32⟩
  | .hbm, ⟨79, _⟩ => ⟨S_, .f32⟩
  | .hbm, ⟨80, _⟩ => ⟨S65536x32, .f32⟩
  | .hbm, ⟨81, _⟩ => ⟨S65536x32, .f32⟩
  | .hbm, ⟨82, _⟩ => ⟨S65536x32, .f32⟩
  | .hbm, ⟨83, _⟩ => ⟨S65536x16, .f32⟩
  | .hbm, ⟨84, _⟩ => ⟨S1x16, .f32⟩
  | .hbm, ⟨85, _⟩ => ⟨S65536x16, .f32⟩
  | .hbm, ⟨86, _⟩ => ⟨S65536x16, .f32⟩
  | .hbm, ⟨87, _⟩ => ⟨S_, .f32⟩
  | .hbm, ⟨88, _⟩ => ⟨S65536x16, .f32⟩
  | .hbm, ⟨89, _⟩ => ⟨S65536x16, .f32⟩
  | .hbm, ⟨90, _⟩ => ⟨S65536x16, .f32⟩
  | .hbm, ⟨91, _⟩ => ⟨S65536x10, .f32⟩
  | .hbm, ⟨92, _⟩ => ⟨S1x10, .f32⟩
  | .hbm, ⟨93, _⟩ => ⟨S65536x10, .f32⟩
  | .hbm, ⟨94, _⟩ => ⟨S65536x10, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_call0_cst : Ref sig .tc := ⟨.hbm, 31, rfl⟩
abbrev main_call0_v0 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_call1_cst : Ref sig .tc := ⟨.hbm, 39, rfl⟩
abbrev main_call1_v0 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_call2_cst : Ref sig .tc := ⟨.hbm, 47, rfl⟩
abbrev main_call2_v0 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_call3_cst : Ref sig .tc := ⟨.hbm, 55, rfl⟩
abbrev main_call3_v0 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_call4_cst : Ref sig .tc := ⟨.hbm, 63, rfl⟩
abbrev main_call4_v0 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_call5_cst : Ref sig .tc := ⟨.hbm, 71, rfl⟩
abbrev main_call5_v0 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_call6_cst : Ref sig .tc := ⟨.hbm, 79, rfl⟩
abbrev main_call6_v0 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_call7_cst : Ref sig .tc := ⟨.hbm, 87, rfl⟩
abbrev main_call7_v0 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  bcast_S_S65536x128 : S_.BroadcastsInDim S65536x128 (![] : Fin 0 → Fin S65536x128.rank)
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S64_S1x64_1 : S64.BroadcastsInDim S1x64 (![1] : Fin 1 → Fin S1x64.rank)
  bcast_S1x64_S65536x64_0_1 : S1x64.BroadcastsInDim S65536x64 (![0, 1] : Fin 2 → Fin S65536x64.rank)
  bcast_S_S65536x64 : S_.BroadcastsInDim S65536x64 (![] : Fin 0 → Fin S65536x64.rank)
  bcast_S32_S1x32_1 : S32.BroadcastsInDim S1x32 (![1] : Fin 1 → Fin S1x32.rank)
  bcast_S1x32_S65536x32_0_1 : S1x32.BroadcastsInDim S65536x32 (![0, 1] : Fin 2 → Fin S65536x32.rank)
  bcast_S_S65536x32 : S_.BroadcastsInDim S65536x32 (![] : Fin 0 → Fin S65536x32.rank)
  bcast_S16_S1x16_1 : S16.BroadcastsInDim S1x16 (![1] : Fin 1 → Fin S1x16.rank)
  bcast_S1x16_S65536x16_0_1 : S1x16.BroadcastsInDim S65536x16 (![0, 1] : Fin 2 → Fin S65536x16.rank)
  bcast_S_S65536x16 : S_.BroadcastsInDim S65536x16 (![] : Fin 0 → Fin S65536x16.rank)
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  dot_S65536x256_S256x128_S65536x128_1_0_0_1_n_n_wf : DotDims.WF S65536x256 S256x128 S65536x128 [1] [0] [0] [1] [] []
  dot_S65536x128_S128x256_S65536x256_1_0_0_1_n_n_wf : DotDims.WF S65536x128 S128x256 S65536x256 [1] [0] [0] [1] [] []
  dot_S65536x256_S256x512_S65536x512_1_0_0_1_n_n_wf : DotDims.WF S65536x256 S256x512 S65536x512 [1] [0] [0] [1] [] []
  dot_S65536x512_S512x256_S65536x256_1_0_0_1_n_n_wf : DotDims.WF S65536x512 S512x256 S65536x256 [1] [0] [0] [1] [] []
  dot_S65536x128_S128x64_S65536x64_1_0_0_1_n_n_wf : DotDims.WF S65536x128 S128x64 S65536x64 [1] [0] [0] [1] [] []
  dot_S65536x64_S64x32_S65536x32_1_0_0_1_n_n_wf : DotDims.WF S65536x64 S64x32 S65536x32 [1] [0] [0] [1] [] []
  dot_S65536x32_S32x16_S65536x16_1_0_0_1_n_n_wf : DotDims.WF S65536x32 S32x16 S65536x16 [1] [0] [0] [1] [] []
  dot_S65536x16_S16x10_S65536x10_1_0_0_1_n_n_wf : DotDims.WF S65536x16 S16x10 S65536x10 [1] [0] [0] [1] [] []

variable [Facts₀]

def dot_S65536x256_S256x128_S65536x128_1_0_0_1_n_n : DotDims S65536x256 S256x128 S65536x128 where
  lhsContracting := [1]
  rhsContracting := [0]
  lhsNonContracting := [0]
  rhsNonContracting := [1]
  lhsBatch := []
  rhsBatch := []
  wf := dot_S65536x256_S256x128_S65536x128_1_0_0_1_n_n_wf
def dot_S65536x128_S128x256_S65536x256_1_0_0_1_n_n : DotDims S65536x128 S128x256 S65536x256 where
  lhsContracting := [1]
  rhsContracting := [0]
  lhsNonContracting := [0]
  rhsNonContracting := [1]
  lhsBatch := []
  rhsBatch := []
  wf := dot_S65536x128_S128x256_S65536x256_1_0_0_1_n_n_wf
def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x32_S65536x32_1_0_0_1_n_n : DotDims S65536x64 S64x32 S65536x32 where
  lhsContracting := [1]
  rhsContracting := [0]
  lhsNonContracting := [0]
  rhsNonContracting := [1]
  lhsBatch := []
  rhsBatch := []
  wf := dot_S65536x64_S64x32_S65536x32_1_0_0_1_n_n_wf
def dot_S65536x32_S32x16_S65536x16_1_0_0_1_n_n : DotDims S65536x32 S32x16 S65536x16 where
  lhsContracting := [1]
  rhsContracting := [0]
  lhsNonContracting := [0]
  rhsNonContracting := [1]
  lhsBatch := []
  rhsBatch := []
  wf := dot_S65536x32_S32x16_S65536x16_1_0_0_1_n_n_wf
def dot_S65536x16_S16x10_S65536x10_1_0_0_1_n_n : DotDims S65536x16 S16x10 S65536x10 where
  lhsContracting := [1]
  rhsContracting := [0]
  lhsNonContracting := [0]
  rhsNonContracting := [1]
  lhsBatch := []
  rhsBatch := []
  wf := dot_S65536x16_S16x10_S65536x10_1_0_0_1_n_n_wf

class Facts : Prop extends Facts₀ where

variable [Facts]
-- ==== Proof.LibDot.lean ====
/-
  A plain matrix product read at an entry.

  For dimension numbers that contract the left operand's columns with the right operand's rows
  (no batch axis), the product of an `[R, K]` array with a `[K, N]` array, accumulated into zero,
  holds at `(p, q)` the sum over `k` of `lhs (p, k) * rhs (k, q)` on the extended reals.  The
  four hypotheses `hl0 … hr1` say where each operand is read for an output entry and a position
  of the contraction; for a concrete record of dimension numbers each is decided by unfolding.
  The same holds for the host's `dot_general`.
-/
import Idealize.ShloMosaic.Lib.ValueIdx
import Idealize.ShloMosaic.PureOps.Ideal.Laws

noncomputable section

open scoped BigOperators

namespace Cert.LibDot

open Idealize.ShloMosaic Idealize.ShloMosaic.ValueIdx

variable {R K N : ℕ} {φ₁ φ₂ : FTy}

/-- Where the two operands are read: the left at `(p, k)`, the right at `(k, q)`, with `k` the
    contraction's one coordinate carried through `contrEquiv1`. -/
theorem operand_indices (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (c : D.contr.Idx), (D.lhsIdx i c 0).val = (i 0).val)
    (hl1 : ∀ (i : (⟨2, ![R, N]⟩ : Shape).Idx) (c : D.contr.Idx), (D.lhsIdx i c 1).val = (c ⟨0, by omega⟩).val)
    (hr0 : ∀ (i : (⟨2, ![R, N]⟩ : Shape).Idx) (c : D.contr.Idx), (D.rhsIdx i c 0).val = (c ⟨0, by omega⟩).val)
    (hr1 : ∀ (i : (⟨2, ![R, N]⟩ : Shape).Idx) (c : D.contr.Idx), (D.rhsIdx i c 1).val = (i 1).val)
    (p : Fin R) (q : Fin N) (k : Fin K) :
    D.lhsIdx (ix2 p q) ((contrEquiv1 D K hr hs).symm k) = ix2 p k
    ∧ D.rhsIdx (ix2 p q) ((contrEquiv1 D K hr hs).symm k) = ix2 k q := by
  have hk := contrEquiv1_symm_val D K hr hs k
  constructor
  · funext a
    apply Fin.ext
    match a with
    | ⟨0, _⟩ => exact hl0 _ _
    | ⟨1, _⟩ => exact (hl1 _ _).trans hk
  · funext a
    apply Fin.ext
    match a with
    | ⟨0, _⟩ => exact (hr0 _ _).trans hk
    | ⟨1, _⟩ => exact hr1 _ _

/-- The kernel's matrix product into the zero accumulator, at an entry. -/
theorem matmul_zero_ix2 (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (c : D.contr.Idx), (D.lhsIdx i c 0).val = (i 0).val)
    (hl1 : ∀ (i : (⟨2, ![R, N]⟩ : Shape).Idx) (c : D.contr.Idx), (D.lhsIdx i c 1).val = (c ⟨0, by omega⟩).val)
    (hr0 : ∀ (i : (⟨2, ![R, N]⟩ : Shape).Idx) (c : D.contr.Idx), (D.rhsIdx i c 0).val = (c ⟨0, by omega⟩).val)
    (hr1 : ∀ (i : (⟨2, ![R, N]⟩ : Shape).Idx) (c : D.contr.Idx), (D.rhsIdx i c 1).val = (i 1).val)
    (prec : Option ContractPrecision)
    (lhs : FVec Ideal ⟨2, ![R, K]⟩ φ₁) (rhs : FVec Ideal ⟨2, ![K, N]⟩ φ₂) (p : Fin R) (q : Fin N) :
    FloatOps.matmul D prec lhs rhs (constant ⟨2, ![R, N]⟩ .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  obtain ⟨el, er⟩ := operand_indices D hr hs hl0 hl1 hr0 hr1 p q k
  rw [el, er]

/-- The host's `dot_general`, at an entry: the same sum. -/
theorem dotGeneral_ix2 (D : DotDims ⟨2, ![R, K]⟩ ⟨2, ![K, N]⟩ ⟨2, ![R, N]⟩)
    (hr : D.contr.rank = 1) (hs : D.contr.size ⟨0, by omega⟩ = K)
    (hl0 : ∀ (i : (⟨2, ![R, N]⟩ : Shape).Idx) (c : D.contr.Idx), (D.lhsIdx i c 0).val = (i 0).val)
    (hl1 : ∀ (i : (⟨2, ![R, N]⟩ : Shape).Idx) (c : D.contr.Idx), (D.lhsIdx i c 1).val = (c ⟨0, by omega⟩).val)
    (hr0 : ∀ (i : (⟨2, ![R, N]⟩ : Shape).Idx) (c : D.contr.Idx), (D.rhsIdx i c 0).val = (c ⟨0, by omega⟩).val)
    (hr1 : ∀ (i : (⟨2, ![R, N]⟩ : Shape).Idx) (c : D.contr.Idx), (D.rhsIdx i c 1).val = (i 1).val)
    (prec : Option ContractPrecision) (sched : HostSchedule)
    (lhs : FVec Ideal ⟨2, ![R, K]⟩ φ₁) (rhs : FVec Ideal ⟨2, ![K, N]⟩ φ₂) (p : Fin R) (q : Fin N) :
    FloatOps.dotGeneral D prec sched lhs rhs (ix2 p q)
      = ∑ k : Fin K, lhs (ix2 p k) * rhs (ix2 k q) := by
  rw [Ideal.dotGeneral_apply, ← Equiv.sum_comp (contrEquiv1 D K hr hs).symm]
  refine Finset.sum_congr rfl fun k _ => ?_
  obtain ⟨el, er⟩ := operand_indices D hr hs hl0 hl1 hr0 hr1 p q k
  rw [el, er]

end Cert.LibDot

end
-- ==== Proof.Net.lean ====
/-
  The network as one function of its parameters, over the extended reals.

  A hidden layer sends a batch `h` (rows indexed by the sample, columns by the feature) to
  `max (h · W + b) 0 ⊙ m`: the affine map, the rectifier, and the entrywise product with the
  layer's dropout mask.  Eight such layers (256 → 128 → 256 → 512 → 256 → 128 → 64 → 32 → 16)
  are followed by one affine map 16 → 10.  Every entry of the result depends on ONE row of the
  batch and of the masks only, so the network commutes with any selection of rows (`net_rows`):
  this is what lets a tile of 1024 samples be computed on its own.
-/
import Mathlib.Data.EReal.Inv
import Mathlib.Algebra.BigOperators.Group.Finset.Basic

noncomputable section

open scoped BigOperators

namespace Cert.MLP

/-- The affine map of a layer: entry `(r, j)` is the inner product of row `r` of the batch with
    column `j` of the weights, plus the bias at `j`. -/
def lin {R K N : ℕ} (h : Fin R → Fin K → EReal) (W : Fin K → Fin N → EReal) (b : Fin N → EReal) :
    Fin R → Fin N → EReal :=
  fun r j => (∑ k : Fin K, h r k * W k j) + b j

/-- A hidden layer: the affine map, cut below at zero, times the mask entry. -/
def hid {R K N : ℕ} (h : Fin R → Fin K → EReal) (W : Fin K → Fin N → EReal) (b : Fin N → EReal)
    (m : Fin R → Fin N → EReal) : Fin R → Fin N → EReal :=
  fun r j => max (lin h W b r j) 0 * m r j

/-- A hidden layer of a selection of rows is that selection of the hidden layer. -/
theorem hid_rows {R R' K N : ℕ} (e : Fin R' → Fin R) (h : Fin R → Fin K → EReal) (W : Fin K → Fin N → EReal)
    (b : Fin N → EReal) (m : Fin R → Fin N → EReal) :
    hid (fun p => h (e p)) W b (fun p => m (e p)) = fun p => hid h W b m (e p) := rfl

/-- The affine map of a selection of rows is that selection of the affine map. -/
theorem lin_rows {R R' K N : ℕ} (e : Fin R' → Fin R) (h : Fin R → Fin K → EReal) (W : Fin K → Fin N → EReal)
    (b : Fin N → EReal) :
    lin (fun p => h (e p)) W b = fun p => lin h W b (e p) := rfl

/-- The network: eight hidden layers and the last affine map, for a batch of `R` samples. -/
def net {R : ℕ} (x : Fin R → Fin 256 → EReal)
    (W1 : Fin 256 → Fin 128 → EReal) (b1 : Fin 128 → EReal) (W2 : Fin 128 → Fin 256 → EReal) (b2 : Fin 256 → EReal)
    (W3 : Fin 256 → Fin 512 → EReal) (b3 : Fin 512 → EReal) (W4 : Fin 512 → Fin 256 → EReal) (b4 : Fin 256 → EReal)
    (W5 : Fin 256 → Fin 128 → EReal) (b5 : Fin 128 → EReal) (W6 : Fin 128 → Fin 64 → EReal) (b6 : Fin 64 → EReal)
    (W7 : Fin 64 → Fin 32 → EReal) (b7 : Fin 32 → EReal) (W8 : Fin 32 → Fin 16 → EReal) (b8 : Fin 16 → EReal)
    (W9 : Fin 16 → Fin 10 → EReal) (b9 : Fin 10 → EReal)
    (m1 : Fin R → Fin 128 → EReal) (m2 : Fin R → Fin 256 → EReal) (m3 : Fin R → Fin 512 → EReal)
    (m4 : Fin R → Fin 256 → EReal) (m5 : Fin R → Fin 128 → EReal) (m6 : Fin R → Fin 64 → EReal)
    (m7 : Fin R → Fin 32 → EReal) (m8 : Fin R → Fin 16 → EReal) : Fin R → Fin 10 → EReal :=
  lin (hid (hid (hid (hid (hid (hid (hid (hid x W1 b1 m1) W2 b2 m2) W3 b3 m3) W4 b4 m4) W5 b5 m5) W6 b6 m6) W7 b7 m7)
    W8 b8 m8) W9 b9

/-- The network of a selection of rows (of the batch and of every mask) is that selection of the
    network's rows: no entry of the result looks at another sample. -/
theorem net_rows {R R' : ℕ} (e : Fin R' → Fin R) (x : Fin R → Fin 256 → EReal)
    (W1 : Fin 256 → Fin 128 → EReal) (b1 : Fin 128 → EReal) (W2 : Fin 128 → Fin 256 → EReal) (b2 : Fin 256 → EReal)
    (W3 : Fin 256 → Fin 512 → EReal) (b3 : Fin 512 → EReal) (W4 : Fin 512 → Fin 256 → EReal) (b4 : Fin 256 → EReal)
    (W5 : Fin 256 → Fin 128 → EReal) (b5 : Fin 128 → EReal) (W6 : Fin 128 → Fin 64 → EReal) (b6 : Fin 64 → EReal)
    (W7 : Fin 64 → Fin 32 → EReal) (b7 : Fin 32 → EReal) (W8 : Fin 32 → Fin 16 → EReal) (b8 : Fin 16 → EReal)
    (W9 : Fin 16 → Fin 10 → EReal) (b9 : Fin 10 → EReal)
    (m1 : Fin R → Fin 128 → EReal) (m2 : Fin R → Fin 256 → EReal) (m3 : Fin R → Fin 512 → EReal)
    (m4 : Fin R → Fin 256 → EReal) (m5 : Fin R → Fin 128 → EReal) (m6 : Fin R → Fin 64 → EReal)
    (m7 : Fin R → Fin 32 → EReal) (m8 : Fin R → Fin 16 → EReal) :
    net (fun p => x (e p)) W1 b1 W2 b2 W3 b3 W4 b4 W5 b5 W6 b6 W7 b7 W8 b8 W9 b9
        (fun p => m1 (e p)) (fun p => m2 (e p)) (fun p => m3 (e p)) (fun p => m4 (e p))
        (fun p => m5 (e p)) (fun p => m6 (e p)) (fun p => m7 (e p)) (fun p => m8 (e p))
      = fun p => net x W1 b1 W2 b2 W3 b3 W4 b4 W5 b5 W6 b6 W7 b7 W8 b8 W9 b9 m1 m2 m3 m4 m5 m6 m7 m8 (e p) := rfl

end Cert.MLP

end
-- ==== Proof.Layer.lean ====
/-
  One hidden layer as the tile computes it, read at an entry.

  The tile adds the bias as a one-row array broadcast down the rows, cuts below at a broadcast
  zero and multiplies by its block of the mask.  Whatever array `mmv` holds the product (its
  entries being the sums `hmm` says), the result at `(p, q)` is the layer function of the
  coordinates' functions.  The last layer has only the bias.
-/
import proofs.«132136_j61984968016173_1_alg».proof.Proof.Net
import Idealize.ShloMosaic.Lib.ValueIdx
import Idealize.ShloMosaic.Lib.ValueLayout
import Idealize.ShloMosaic.PureOps.Ideal.Laws

noncomputable section

open scoped BigOperators

namespace Cert.MLP

open Idealize.ShloMosaic Idealize.ShloMosaic.ValueIdx

/-- A two-axis array as a function of its two coordinates. -/
abbrev cur2 {a b : ℕ} (v : (⟨2, ![a, b]⟩ : Shape).Idx → EReal) : Fin a → Fin b → EReal := fun r k => v (ix2 r k)

/-- A one-axis array as a function of its coordinate. -/
abbrev cur1 {a : ℕ} (v : (⟨1, ![a]⟩ : Shape).Idx → EReal) : Fin a → EReal := fun j => v (ix1 j)

variable {R K N : ℕ}

/-- The affine part: product plus the bias row broadcast over the rows. -/
theorem affine_ix2 (mmv : FVec Ideal ⟨2, ![R, N]⟩ .f32) (h : Fin R → Fin K → EReal) (W : Fin K → Fin N → EReal)
    (hmm : ∀ p q, mmv (ix2 p q) = ∑ k : Fin K, h p k * W k q)
    (b : FVec Ideal ⟨1, ![N]⟩ .f32) (hc : (⟨1, ![N]⟩ : Shape).ShapeCasts ⟨2, ![1, N]⟩)
    (hb : (⟨2, ![1, N]⟩ : Shape).Broadcasts ⟨2, ![R, N]⟩) (p : Fin R) (q : Fin N) :
    addf mmv (broadcastTo ⟨2, ![R, N]⟩ (shapeCast ⟨2, ![1, N]⟩ b hc) hb) (ix2 p q)
      = lin h W (cur1 b) p q := by
  rw [addf_apply, hmm, broadcastTo_1b_ab_apply, shapeCast_a_1a_apply]
  rfl

/-- A hidden layer: the affine part, cut below at the zero splat, times the mask block. -/
theorem hidden_ix2 (mmv : FVec Ideal ⟨2, ![R, N]⟩ .f32) (h : Fin R → Fin K → EReal) (W : Fin K → Fin N → EReal)
    (hmm : ∀ p q, mmv (ix2 p q) = ∑ k : Fin K, h p k * W k q)
    (b : FVec Ideal ⟨1, ![N]⟩ .f32) (hc : (⟨1, ![N]⟩ : Shape).ShapeCasts ⟨2, ![1, N]⟩)
    (hb : (⟨2, ![1, N]⟩ : Shape).Broadcasts ⟨2, ![R, N]⟩)
    (mk : FVec Ideal ⟨2, ![R, N]⟩ .f32) (p : Fin R) (q : Fin N) :
    mulf (maximumf (addf mmv (broadcastTo ⟨2, ![R, N]⟩ (shapeCast ⟨2, ![1, N]⟩ b hc) hb))
        (broadcast ⟨2, ![R, N]⟩ (Scalar.ofBits (F := Ideal) .f32 0x00000000#32))) mk (ix2 p q)
      = hid h W (cur1 b) (cur2 mk) p q := by
  rw [mulf_apply, maximumf_apply, affine_ix2 mmv h W hmm b hc hb p q, broadcast_apply]
  show max (lin h W (cur1 b) p q) (Ideal.ofBits .f32 0x00000000#32) * mk (ix2 p q) = _
  rw [Ideal.ofBits_zero_f32]
  rfl

/-- What is asked of a tile's dimension numbers: its product into zero is the plain sum. -/
def PlainDot (D : DotDims ⟨2, ![R, K]⟩ ⟨2, ![K, N]⟩ ⟨2, ![R, N]⟩) : Prop :=
  ∀ {φ₁ φ₂ : FTy} (lhs : FVec Ideal ⟨2, ![R, K]⟩ φ₁) (rhs : FVec Ideal ⟨2, ![K, N]⟩ φ₂) (p : Fin R) (q : Fin N),
    FloatOps.matmul D none lhs rhs (constant ⟨2, ![R, N]⟩ .f32 0x00000000#32) (ix2 p q)
      = ∑ k : Fin K, lhs (ix2 p k) * rhs (ix2 k q)

/-- The product of activations known entry by entry (`hprev`) with the weights, both narrowed to
    the product's input format (the identity on the extended reals). -/
theorem product_tile {φ : FTy} {D : DotDims ⟨2, ![R, K]⟩ ⟨2, ![K, N]⟩ ⟨2, ![R, N]⟩} (hD : PlainDot D)
    (hv : FVec Ideal ⟨2, ![R, K]⟩ φ) (h : Fin R → Fin K → EReal) (hprev : ∀ p k, hv (ix2 p k) = h p k)
    (w : FVec Ideal ⟨2, ![K, N]⟩ .f32) (hw : FTy.bf16.bits < FTy.f32.bits) (p : Fin R) (q : Fin N) :
    FloatOps.matmul D none hv (truncf .bf16 w hw) (constant ⟨2, ![R, N]⟩ .f32 0x00000000#32) (ix2 p q)
      = ∑ k : Fin K, h p k * cur2 w k q := by
  rw [hD]
  exact Finset.sum_congr rfl fun k _ => by rw [hprev]; rfl

/-- The last layer of a tile. -/
theorem affine_tile {φ : FTy} {D : DotDims ⟨2, ![R, K]⟩ ⟨2, ![K, N]⟩ ⟨2, ![R, N]⟩} (hD : PlainDot D)
    (hv : FVec Ideal ⟨2, ![R, K]⟩ φ) (h : Fin R → Fin K → EReal) (hprev : ∀ p k, hv (ix2 p k) = h p k)
    (w : FVec Ideal ⟨2, ![K, N]⟩ .f32) (hw : FTy.bf16.bits < FTy.f32.bits)
    (b : FVec Ideal ⟨1, ![N]⟩ .f32) (hc : (⟨1, ![N]⟩ : Shape).ShapeCasts ⟨2, ![1, N]⟩)
    (hb : (⟨2, ![1, N]⟩ : Shape).Broadcasts ⟨2, ![R, N]⟩) (p : Fin R) (q : Fin N) :
    addf (matmul D none hv (truncf .bf16 w hw) (constant ⟨2, ![R, N]⟩ .f32 0x00000000#32))
        (broadcastTo ⟨2, ![R, N]⟩ (shapeCast ⟨2, ![1, N]⟩ b hc) hb) (ix2 p q)
      = lin h (cur2 w) (cur1 b) p q :=
  affine_ix2 _ h (cur2 w) (fun p q => product_tile hD hv h hprev w hw p q) b hc hb p q

/-- A hidden layer of a tile, its result narrowed for the next product. -/
theorem hidden_tile {φ : FTy} {D : DotDims ⟨2, ![R, K]⟩ ⟨2, ![K, N]⟩ ⟨2, ![R, N]⟩} (hD : PlainDot D)
    (hv : FVec Ideal ⟨2, ![R, K]⟩ φ) (h : Fin R → Fin K → EReal) (hprev : ∀ p k, hv (ix2 p k) = h p k)
    (w : FVec Ideal ⟨2, ![K, N]⟩ .f32) (hw : FTy.bf16.bits < FTy.f32.bits)
    (b : FVec Ideal ⟨1, ![N]⟩ .f32) (hc : (⟨1, ![N]⟩ : Shape).ShapeCasts ⟨2, ![1, N]⟩)
    (hb : (⟨2, ![1, N]⟩ : Shape).Broadcasts ⟨2, ![R, N]⟩)
    (mk : FVec Ideal ⟨2, ![R, N]⟩ .f32) (p : Fin R) (q : Fin N) :
    mulf (maximumf (addf (matmul D none hv (truncf .bf16 w hw) (constant ⟨2, ![R, N]⟩ .f32 0x00000000#32))
          (broadcastTo ⟨2, ![R, N]⟩ (shapeCast ⟨2, ![1, N]⟩ b hc) hb))
        (broadcast ⟨2, ![R, N]⟩ (Scalar.ofBits (F := Ideal) .f32 0x00000000#32))) mk (ix2 p q)
      = hid h (cur2 w) (cur1 b) (cur2 mk) p q :=
  hidden_ix2 _ h (cur2 w) (fun p q => product_tile hD hv h hprev w hw p q) b hc hb mk p q

end Cert.MLP

end
-- ==== Proof.Tile.lean ====
/-
  The eight matrix products of one tile of 1024 samples, each read at an entry: with the
  accumulator zero, entry `(p, q)` of `h · W` is the sum over `k` of `h (p, k) * W (k, q)`.
  Each is the general statement for a plain product at this tile's dimension numbers, whose
  operand positions are decided by unfolding.
-/
import proofs.«132136_j61984968016173_1_alg».proof.Proof.Gen.KernelIdeal
import proofs.«132136_j61984968016173_1_alg».proof.Proof.LibDot
import proofs.«132136_j61984968016173_1_alg».proof.Proof.Layer

noncomputable section

open scoped BigOperators

namespace Cert.KernelIdeal.Tile

open Cert.KernelIdeal Idealize.ShloMosaic Idealize.ShloMosaic.ValueIdx

/-- A tile's product of its `[1024, 256]` activations with the `[256, 128]` weights, at `(p, q)`. -/
theorem mm_256_128 {φ₁ φ₂ : FTy} (lhs : FVec Ideal S1024x256 φ₁) (rhs : FVec Ideal S256x128 φ₂) (p : Fin 1024) (q : Fin 128) :
    matmul dot_S1024x256_S256x128_S1024x128_1_0_0_1_n_n none lhs rhs (constant S1024x128 .f32 0x00000000#32) (ix2 p q)
      = ∑ k : Fin 256, lhs (ix2 p k) * rhs (ix2 k q) :=
  Cert.LibDot.matmul_zero_ix2 dot_S1024x256_S256x128_S1024x128_1_0_0_1_n_n rfl rfl
    (fun i c => by
      unfold DotDims.lhsIdx
      rw [dif_neg (show ¬(0 : Fin S1024x256.rank) ∈ dot_S1024x256_S256x128_S1024x128_1_0_0_1_n_n.lhsBatch by decide),
        dif_pos (show (0 : Fin S1024x256.rank) ∈ dot_S1024x256_S256x128_S1024x128_1_0_0_1_n_n.lhsNonContracting by decide)]
      rfl)
    (fun i c => dot_S1024x256_S256x128_S1024x128_1_0_0_1_n_n.lhsIdx_val_of_single rfl i c)
    (fun i c => dot_S1024x256_S256x128_S1024x128_1_0_0_1_n_n.rhsIdx_val_of_single rfl i c)
    (fun i c => by
      unfold DotDims.rhsIdx
      rw [dif_neg (show ¬(1 : Fin S256x128.rank) ∈ dot_S1024x256_S256x128_S1024x128_1_0_0_1_n_n.rhsBatch by decide),
        dif_pos (show (1 : Fin S256x128.rank) ∈ dot_S1024x256_S256x128_S1024x128_1_0_0_1_n_n.rhsNonContracting by decide)]
      rfl)
    none lhs rhs p q

/-- A tile's product of its `[1024, 128]` activations with the `[128, 256]` weights, at `(p, q)`. -/
theorem mm_128_256 {φ₁ φ₂ : FTy} (lhs : FVec Ideal S1024x128 φ₁) (rhs : FVec Ideal S128x256 φ₂) (p : Fin 1024) (q : Fin 256) :
    matmul dot_S1024x128_S128x256_S1024x256_1_0_0_1_n_n none lhs rhs (constant S1024x256 .f32 0x00000000#32) (ix2 p q)
      = ∑ k : Fin 128, lhs (ix2 p k) * rhs (ix2 k q) :=
  Cert.LibDot.matmul_zero_ix2 dot_S1024x128_S128x256_S1024x256_1_0_0_1_n_n rfl rfl
    (fun i c => by
      unfold DotDims.lhsIdx
      rw [dif_neg (show ¬(0 : Fin S1024x128.rank) ∈ dot_S1024x128_S128x256_S1024x256_1_0_0_1_n_n.lhsBatch by decide),
        dif_pos (show (0 : Fin S1024x128.rank) ∈ dot_S1024x128_S128x256_S1024x256_1_0_0_1_n_n.lhsNonContracting by decide)]
      rfl)
    (fun i c => dot_S1024x128_S128x256_S1024x256_1_0_0_1_n_n.lhsIdx_val_of_single rfl i c)
    (fun i c => dot_S1024x128_S128x256_S1024x256_1_0_0_1_n_n.rhsIdx_val_of_single rfl i c)
    (fun i c => by
      unfold DotDims.rhsIdx
      rw [dif_neg (show ¬(1 : Fin S128x256.rank) ∈ dot_S1024x128_S128x256_S1024x256_1_0_0_1_n_n.rhsBatch by decide),
        dif_pos (show (1 : Fin S128x256.rank) ∈ dot_S1024x128_S128x256_S1024x256_1_0_0_1_n_n.rhsNonContracting by decide)]
      rfl)
    none lhs rhs p q

/-- A tile's product of its `[1024, 256]` activations with the `[256, 512]` weights, at `(p, q)`. -/
theorem mm_256_512 {φ₁ φ₂ : FTy} (lhs : FVec Ideal S1024x256 φ₁) (rhs : FVec Ideal S256x512 φ₂) (p : Fin 1024) (q : Fin 512) :
    matmul dot_S1024x256_S256x512_S1024x512_1_0_0_1_n_n none lhs rhs (constant S1024x512 .f32 0x00000000#32) (ix2 p q)
      = ∑ k : Fin 256, lhs (ix2 p k) * rhs (ix2 k q) :=
  Cert.LibDot.matmul_zero_ix2 dot_S1024x256_S256x512_S1024x512_1_0_0_1_n_n rfl rfl
    (fun i c => by
      unfold DotDims.lhsIdx
      rw [dif_neg (show ¬(0 : Fin S1024x256.rank) ∈ dot_S1024x256_S256x512_S1024x512_1_0_0_1_n_n.lhsBatch by decide),
        dif_pos (show (0 : Fin S1024x256.rank) ∈ dot_S1024x256_S256x512_S1024x512_1_0_0_1_n_n.lhsNonContracting by decide)]
      rfl)
    (fun i c => dot_S1024x256_S256x512_S1024x512_1_0_0_1_n_n.lhsIdx_val_of_single rfl i c)
    (fun i c => dot_S1024x256_S256x512_S1024x512_1_0_0_1_n_n.rhsIdx_val_of_single rfl i c)
    (fun i c => by
      unfold DotDims.rhsIdx
      rw [dif_neg (show ¬(1 : Fin S256x512.rank) ∈ dot_S1024x256_S256x512_S1024x512_1_0_0_1_n_n.rhsBatch by decide),
        dif_pos (show (1 : Fin S256x512.rank) ∈ dot_S1024x256_S256x512_S1024x512_1_0_0_1_n_n.rhsNonContracting by decide)]
      rfl)
    none lhs rhs p q

/-- A tile's product of its `[1024, 512]` activations with the `[512, 256]` weights, at `(p, q)`. -/
theorem mm_512_256 {φ₁ φ₂ : FTy} (lhs : FVec Ideal S1024x512 φ₁) (rhs : FVec Ideal S512x256 φ₂) (p : Fin 1024) (q : Fin 256) :
    matmul dot_S1024x512_S512x256_S1024x256_1_0_0_1_n_n none lhs rhs (constant S1024x256 .f32 0x00000000#32) (ix2 p q)
      = ∑ k : Fin 512, lhs (ix2 p k) * rhs (ix2 k q) :=
  Cert.LibDot.matmul_zero_ix2 dot_S1024x512_S512x256_S1024x256_1_0_0_1_n_n rfl rfl
    (fun i c => by
      unfold DotDims.lhsIdx
      rw [dif_neg (show ¬(0 : Fin S1024x512.rank) ∈ dot_S1024x512_S512x256_S1024x256_1_0_0_1_n_n.lhsBatch by decide),
        dif_pos (show (0 : Fin S1024x512.rank) ∈ dot_S1024x512_S512x256_S1024x256_1_0_0_1_n_n.lhsNonContracting by decide)]
      rfl)
    (fun i c => dot_S1024x512_S512x256_S1024x256_1_0_0_1_n_n.lhsIdx_val_of_single rfl i c)
    (fun i c => dot_S1024x512_S512x256_S1024x256_1_0_0_1_n_n.rhsIdx_val_of_single rfl i c)
    (fun i c => by
      unfold DotDims.rhsIdx
      rw [dif_neg (show ¬(1 : Fin S512x256.rank) ∈ dot_S1024x512_S512x256_S1024x256_1_0_0_1_n_n.rhsBatch by decide),
        dif_pos (show (1 : Fin S512x256.rank) ∈ dot_S1024x512_S512x256_S1024x256_1_0_0_1_n_n.rhsNonContracting by decide)]
      rfl)
    none lhs rhs p q

/-- A tile's product of its `[1024, 128]` activations with the `[128, 64]` weights, at `(p, q)`. -/
theorem mm_128_64 {φ₁ φ₂ : FTy} (lhs : FVec Ideal S1024x128 φ₁) (rhs : FVec Ideal S128x64 φ₂) (p : Fin 1024) (q : Fin 64) :
    matmul dot_S1024x128_S128x64_S1024x64_1_0_0_1_n_n none lhs rhs (constant S1024x64 .f32 0x00000000#32) (ix2 p q)
      = ∑ k : Fin 128, lhs (ix2 p k) * rhs (ix2 k q) :=
  Cert.LibDot.matmul_zero_ix2 dot_S1024x128_S128x64_S1024x64_1_0_0_1_n_n rfl rfl
    (fun i c => by
      unfold DotDims.lhsIdx
      rw [dif_neg (show ¬(0 : Fin S1024x128.rank) ∈ dot_S1024x128_S128x64_S1024x64_1_0_0_1_n_n.lhsBatch by decide),
        dif_pos (show (0 : Fin S1024x128.rank) ∈ dot_S1024x128_S128x64_S1024x64_1_0_0_1_n_n.lhsNonContracting by decide)]
      rfl)
    (fun i c => dot_S1024x128_S128x64_S1024x64_1_0_0_1_n_n.lhsIdx_val_of_single rfl i c)
    (fun i c => dot_S1024x128_S128x64_S1024x64_1_0_0_1_n_n.rhsIdx_val_of_single rfl i c)
    (fun i c => by
      unfold DotDims.rhsIdx
      rw [dif_neg (show ¬(1 : Fin S128x64.rank) ∈ dot_S1024x128_S128x64_S1024x64_1_0_0_1_n_n.rhsBatch by decide),
        dif_pos (show (1 : Fin S128x64.rank) ∈ dot_S1024x128_S128x64_S1024x64_1_0_0_1_n_n.rhsNonContracting by decide)]
      rfl)
    none lhs rhs p q

/-- A tile's product of its `[1024, 64]` activations with the `[64, 32]` weights, at `(p, q)`. -/
theorem mm_64_32 {φ₁ φ₂ : FTy} (lhs : FVec Ideal S1024x64 φ₁) (rhs : FVec Ideal S64x32 φ₂) (p : Fin 1024) (q : Fin 32) :
    matmul dot_S1024x64_S64x32_S1024x32_1_0_0_1_n_n none lhs rhs (constant S1024x32 .f32 0x00000000#32) (ix2 p q)
      = ∑ k : Fin 64, lhs (ix2 p k) * rhs (ix2 k q) :=
  Cert.LibDot.matmul_zero_ix2 dot_S1024x64_S64x32_S1024x32_1_0_0_1_n_n rfl rfl
    (fun i c => by
      unfold DotDims.lhsIdx
      rw [dif_neg (show ¬(0 : Fin S1024x64.rank) ∈ dot_S1024x64_S64x32_S1024x32_1_0_0_1_n_n.lhsBatch by decide),
        dif_pos (show (0 : Fin S1024x64.rank) ∈ dot_S1024x64_S64x32_S1024x32_1_0_0_1_n_n.lhsNonContracting by decide)]
      rfl)
    (fun i c => dot_S1024x64_S64x32_S1024x32_1_0_0_1_n_n.lhsIdx_val_of_single rfl i c)
    (fun i c => dot_S1024x64_S64x32_S1024x32_1_0_0_1_n_n.rhsIdx_val_of_single rfl i c)
    (fun i c => by
      unfold DotDims.rhsIdx
      rw [dif_neg (show ¬(1 : Fin S64x32.rank) ∈ dot_S1024x64_S64x32_S1024x32_1_0_0_1_n_n.rhsBatch by decide),
        dif_pos (show (1 : Fin S64x32.rank) ∈ dot_S1024x64_S64x32_S1024x32_1_0_0_1_n_n.rhsNonContracting by decide)]
      rfl)
    none lhs rhs p q

/-- A tile's product of its `[1024, 32]` activations with the `[32, 16]` weights, at `(p, q)`. -/
theorem mm_32_16 {φ₁ φ₂ : FTy} (lhs : FVec Ideal S1024x32 φ₁) (rhs : FVec Ideal S32x16 φ₂) (p : Fin 1024) (q : Fin 16) :
    matmul dot_S1024x32_S32x16_S1024x16_1_0_0_1_n_n none lhs rhs (constant S1024x16 .f32 0x00000000#32) (ix2 p q)
      = ∑ k : Fin 32, lhs (ix2 p k) * rhs (ix2 k q) :=
  Cert.LibDot.matmul_zero_ix2 dot_S1024x32_S32x16_S1024x16_1_0_0_1_n_n rfl rfl
    (fun i c => by
      unfold DotDims.lhsIdx
      rw [dif_neg (show ¬(0 : Fin S1024x32.rank) ∈ dot_S1024x32_S32x16_S1024x16_1_0_0_1_n_n.lhsBatch by decide),
        dif_pos (show (0 : Fin S1024x32.rank) ∈ dot_S1024x32_S32x16_S1024x16_1_0_0_1_n_n.lhsNonContracting by decide)]
      rfl)
    (fun i c => dot_S1024x32_S32x16_S1024x16_1_0_0_1_n_n.lhsIdx_val_of_single rfl i c)
    (fun i c => dot_S1024x32_S32x16_S1024x16_1_0_0_1_n_n.rhsIdx_val_of_single rfl i c)
    (fun i c => by
      unfold DotDims.rhsIdx
      rw [dif_neg (show ¬(1 : Fin S32x16.rank) ∈ dot_S1024x32_S32x16_S1024x16_1_0_0_1_n_n.rhsBatch by decide),
        dif_pos (show (1 : Fin S32x16.rank) ∈ dot_S1024x32_S32x16_S1024x16_1_0_0_1_n_n.rhsNonContracting by decide)]
      rfl)
    none lhs rhs p q

/-- A tile's product of its `[1024, 16]` activations with the `[16, 10]` weights, at `(p, q)`. -/
theorem mm_16_10 {φ₁ φ₂ : FTy} (lhs : FVec Ideal S1024x16 φ₁) (rhs : FVec Ideal S16x10 φ₂) (p : Fin 1024) (q : Fin 10) :
    matmul dot_S1024x16_S16x10_S1024x10_1_0_0_1_n_n none lhs rhs (constant S1024x10 .f32 0x00000000#32) (ix2 p q)
      = ∑ k : Fin 16, lhs (ix2 p k) * rhs (ix2 k q) :=
  Cert.LibDot.matmul_zero_ix2 dot_S1024x16_S16x10_S1024x10_1_0_0_1_n_n rfl rfl
    (fun i c => by
      unfold DotDims.lhsIdx
      rw [dif_neg (show ¬(0 : Fin S1024x16.rank) ∈ dot_S1024x16_S16x10_S1024x10_1_0_0_1_n_n.lhsBatch by decide),
        dif_pos (show (0 : Fin S1024x16.rank) ∈ dot_S1024x16_S16x10_S1024x10_1_0_0_1_n_n.lhsNonContracting by decide)]
      rfl)
    (fun i c => dot_S1024x16_S16x10_S1024x10_1_0_0_1_n_n.lhsIdx_val_of_single rfl i c)
    (fun i c => dot_S1024x16_S16x10_S1024x10_1_0_0_1_n_n.rhsIdx_val_of_single rfl i c)
    (fun i c => by
      unfold DotDims.rhsIdx
      rw [dif_neg (show ¬(1 : Fin S16x10.rank) ∈ dot_S1024x16_S16x10_S1024x10_1_0_0_1_n_n.rhsBatch by decide),
        dif_pos (show (1 : Fin S16x10.rank) ∈ dot_S1024x16_S16x10_S1024x10_1_0_0_1_n_n.rhsNonContracting by decide)]
      rfl)
    none lhs rhs p q

/-- Each of the eight is a plain product in the sense the layer lemmas ask for. -/
theorem plain_256_128 : Cert.MLP.PlainDot dot_S1024x256_S256x128_S1024x128_1_0_0_1_n_n := fun lhs rhs p q => mm_256_128 lhs rhs p q
theorem plain_128_256 : Cert.MLP.PlainDot dot_S1024x128_S128x256_S1024x256_1_0_0_1_n_n := fun lhs rhs p q => mm_128_256 lhs rhs p q
theorem plain_256_512 : Cert.MLP.PlainDot dot_S1024x256_S256x512_S1024x512_1_0_0_1_n_n := fun lhs rhs p q => mm_256_512 lhs rhs p q
theorem plain_512_256 : Cert.MLP.PlainDot dot_S1024x512_S512x256_S1024x256_1_0_0_1_n_n := fun lhs rhs p q => mm_512_256 lhs rhs p q
theorem plain_128_64 : Cert.MLP.PlainDot dot_S1024x128_S128x64_S1024x64_1_0_0_1_n_n := fun lhs rhs p q => mm_128_64 lhs rhs p q
theorem plain_64_32 : Cert.MLP.PlainDot dot_S1024x64_S64x32_S1024x32_1_0_0_1_n_n := fun lhs rhs p q => mm_64_32 lhs rhs p q
theorem plain_32_16 : Cert.MLP.PlainDot dot_S1024x32_S32x16_S1024x16_1_0_0_1_n_n := fun lhs rhs p q => mm_32_16 lhs rhs p q
theorem plain_16_10 : Cert.MLP.PlainDot dot_S1024x16_S16x10_S1024x10_1_0_0_1_n_n := fun lhs rhs p q => mm_16_10 lhs rhs p q

end Cert.KernelIdeal.Tile

end
-- ==== Proof.TilePay.lean ====
/-
  What one tile stores, entry by entry.

  The value a grid point writes to its `[1024, 10]` output block is the network of the point's
  blocks: the block of the batch, the whole weights and biases, the blocks of the eight masks.
  The body's arithmetic is read from the last layer inwards; under each product the activations
  it takes are the previous layer's, and the first product takes the batch block itself (the
  narrowing to the product's input format is the identity on the extended reals).
-/
import proofs.«132136_j61984968016173_1_alg».proof.Proof.Gen.KernelIdeal.Skeleton
import proofs.«132136_j61984968016173_1_alg».proof.Proof.Tile

noncomputable section

open scoped BigOperators

namespace Cert.KernelIdeal.Tile

open Cert.KernelIdeal Cert.KernelIdeal.Gen Cert.MLP Idealize.ShloMosaic Idealize.ShloMosaic.ValueIdx

/-- The stored value at `(p, q)` is the network of the loaded blocks at `(p, q)`. -/
theorem stored_ix2
    (x0 : Vec Ideal S1024x256 .f32) (x1 : Vec Ideal S256x128 .f32) (x2 : Vec Ideal S128 .f32) (x3 : Vec Ideal S128x256 .f32)
    (x4 : Vec Ideal S256 .f32) (x5 : Vec Ideal S256x512 .f32) (x6 : Vec Ideal S512 .f32) (x7 : Vec Ideal S512x256 .f32)
    (x8 : Vec Ideal S256 .f32) (x9 : Vec Ideal S256x128 .f32) (x10 : Vec Ideal S128 .f32) (x11 : Vec Ideal S128x64 .f32)
    (x12 : Vec Ideal S64 .f32) (x13 : Vec Ideal S64x32 .f32) (x14 : Vec Ideal S32 .f32) (x15 : Vec Ideal S32x16 .f32)
    (x16 : Vec Ideal S16 .f32) (x17 : Vec Ideal S16x10 .f32) (x18 : Vec Ideal S10 .f32) (x19 : Vec Ideal S1024x128 .f32)
    (x20 : Vec Ideal S1024x256 .f32) (x21 : Vec Ideal S1024x512 .f32) (x22 : Vec Ideal S1024x256 .f32) (x23 : Vec Ideal S1024x128 .f32)
    (x24 : Vec Ideal S1024x64 .f32) (x25 : Vec Ideal S1024x32 .f32) (x26 : Vec Ideal S1024x16 .f32)
    (p : Fin 1024) (q : Fin 10) :
    k0_pay1 (F := Ideal) (k0_pay3 (F := Ideal) (k0_pay2 (F := Ideal) x0 x1 x2 x19 x3 x4 x20 x5 x6)
        x21 x7 x8 x22 x9 x10 x23 x11 x12 x24) x13 x14 x25 x15 x16 x26 x17 x18 (ix2 p q)
      = net (cur2 x0) (cur2 x1) (cur1 x2) (cur2 x3) (cur1 x4) (cur2 x5) (cur1 x6) (cur2 x7) (cur1 x8) (cur2 x9) (cur1 x10) (cur2 x11) (cur1 x12) (cur2 x13) (cur1 x14) (cur2 x15) (cur1 x16) (cur2 x17) (cur1 x18) (cur2 x19) (cur2 x20) (cur2 x21) (cur2 x22) (cur2 x23) (cur2 x24) (cur2 x25) (cur2 x26) p q := by
  unfold k0_pay1 k0_pay3 k0_pay2 net
  dsimp only
  refine affine_tile plain_16_10 _ _ (fun p k => ?_) x17 _ x18 _ _ p q
  refine hidden_tile plain_32_16 _ _ (fun p k => ?_) x15 _ x16 _ _ x26 p k
  refine hidden_tile plain_64_32 _ _ (fun p k => ?_) x13 _ x14 _ _ x25 p k
  refine hidden_tile plain_128_64 _ _ (fun p k => ?_) x11 _ x12 _ _ x24 p k
  refine hidden_tile plain_256_128 _ _ (fun p k => ?_) x9 _ x10 _ _ x23 p k
  refine hidden_tile plain_512_256 _ _ (fun p k => ?_) x7 _ x8 _ _ x22 p k
  refine hidden_tile plain_256_512 _ _ (fun p k => ?_) x5 _ x6 _ _ x21 p k
  refine hidden_tile plain_128_256 _ _ (fun p k => ?_) x3 _ x4 _ _ x20 p k
  refine hidden_tile plain_256_128 _ _ (fun p k => ?_) x1 _ x2 _ _ x19 p k
  rfl

end Cert.KernelIdeal.Tile

end
-- ==== Proof.Whole.lean ====
/-
  The result array as one function of the argument arrays: entry `(r, j)` is the network of the
  arrays' coordinate functions at row `r` and class `j`.
-/
import proofs.«132136_j61984968016173_1_alg».proof.Proof.Layer

noncomputable section

namespace Cert.MLP

open Idealize.ShloMosaic Idealize.ShloMosaic.ValueIdx

/-- The `[65536, 10]` result of the batch `a0`, the weights and biases `a1 … a18` and the masks
    `a19 … a26`. -/
def whole
    (a0 : (⟨2, ![65536, 256]⟩ : Shape).Idx → EReal) (a1 : (⟨2, ![256, 128]⟩ : Shape).Idx → EReal) (a2 : (⟨1, ![128]⟩ : Shape).Idx → EReal)
    (a3 : (⟨2, ![128, 256]⟩ : Shape).Idx → EReal) (a4 : (⟨1, ![256]⟩ : Shape).Idx → EReal) (a5 : (⟨2, ![256, 512]⟩ : Shape).Idx → EReal)
    (a6 : (⟨1, ![512]⟩ : Shape).Idx → EReal) (a7 : (⟨2, ![512, 256]⟩ : Shape).Idx → EReal) (a8 : (⟨1, ![256]⟩ : Shape).Idx → EReal)
    (a9 : (⟨2, ![256, 128]⟩ : Shape).Idx → EReal) (a10 : (⟨1, ![128]⟩ : Shape).Idx → EReal) (a11 : (⟨2, ![128, 64]⟩ : Shape).Idx → EReal)
    (a12 : (⟨1, ![64]⟩ : Shape).Idx → EReal) (a13 : (⟨2, ![64, 32]⟩ : Shape).Idx → EReal) (a14 : (⟨1, ![32]⟩ : Shape).Idx → EReal)
    (a15 : (⟨2, ![32, 16]⟩ : Shape).Idx → EReal) (a16 : (⟨1, ![16]⟩ : Shape).Idx → EReal) (a17 : (⟨2, ![16, 10]⟩ : Shape).Idx → EReal)
    (a18 : (⟨1, ![10]⟩ : Shape).Idx → EReal) (a19 : (⟨2, ![65536, 128]⟩ : Shape).Idx → EReal) (a20 : (⟨2, ![65536, 256]⟩ : Shape).Idx → EReal)
    (a21 : (⟨2, ![65536, 512]⟩ : Shape).Idx → EReal) (a22 : (⟨2, ![65536, 256]⟩ : Shape).Idx → EReal) (a23 : (⟨2, ![65536, 128]⟩ : Shape).Idx → EReal)
    (a24 : (⟨2, ![65536, 64]⟩ : Shape).Idx → EReal) (a25 : (⟨2, ![65536, 32]⟩ : Shape).Idx → EReal) (a26 : (⟨2, ![65536, 16]⟩ : Shape).Idx → EReal) :
    (⟨2, ![65536, 10]⟩ : Shape).Idx → EReal :=
  fun i => net (cur2 a0) (cur2 a1) (cur1 a2) (cur2 a3) (cur1 a4) (cur2 a5) (cur1 a6) (cur2 a7) (cur1 a8) (cur2 a9) (cur1 a10) (cur2 a11) (cur1 a12) (cur2 a13) (cur1 a14) (cur2 a15) (cur1 a16) (cur2 a17) (cur1 a18) (cur2 a19) (cur2 a20) (cur2 a21) (cur2 a22) (cur2 a23) (cur2 a24) (cur2 a25) (cur2 a26) (i 0) (i 1)

end Cert.MLP

end
-- ==== Proof.Blocks.lean ====
/-
  From the tiles to the array.

  Grid point `t` handles samples `1024 t … 1024 t + 1023`: its blocks of the batch, of the eight
  masks and of the result are those rows, and its blocks of the weights and biases are the whole
  arrays.  A tile's stored value is the network of its blocks, and the network is row by row, so
  what point `t` writes back is block `t` of the whole result; the 64 blocks tile the result
  array, which therefore ends holding the network of the argument arrays.
-/
import proofs.«132136_j61984968016173_1_alg».proof.Proof.KernelIdealValue
import proofs.«132136_j61984968016173_1_alg».proof.Proof.TilePay
import proofs.«132136_j61984968016173_1_alg».proof.Proof.Whole

set_option maxRecDepth 16384

noncomputable section

namespace Cert.KernelIdeal.Blocks

open Cert.KernelIdeal Cert.KernelIdeal.GenP Cert.KernelIdeal.Gen Cert.MLP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- There are 64 grid points. -/
theorem lt64 (t : Fin cfg0.N) : t.val < 64 := Nat.lt_of_lt_of_eq t.isLt N_0

/-- The sample that row `p` of point `t`'s tile is. -/
def row (t : Fin cfg0.N) (p : Fin 1024) : Fin 65536 :=
  ⟨t.val * 1024 + p.val, by have := lt64 t; have := p.isLt; omega⟩

/-! ## The block indices, decided over the 64 points -/

theorem idx0 : ∀ t : Fin cfg0.N, win0_0.index t (0 : Fin 2) = t.val ∧ win0_0.index t (1 : Fin 2) = 0 :=
  (by decide +kernel : ∀ t : Fin grid0.N, _)
theorem idx19 : ∀ t : Fin cfg0.N, win0_19.index t (0 : Fin 2) = t.val ∧ win0_19.index t (1 : Fin 2) = 0 :=
  (by decide +kernel : ∀ t : Fin grid0.N, _)
theorem idx20 : ∀ t : Fin cfg0.N, win0_20.index t (0 : Fin 2) = t.val ∧ win0_20.index t (1 : Fin 2) = 0 :=
  (by decide +kernel : ∀ t : Fin grid0.N, _)
theorem idx21 : ∀ t : Fin cfg0.N, win0_21.index t (0 : Fin 2) = t.val ∧ win0_21.index t (1 : Fin 2) = 0 :=
  (by decide +kernel : ∀ t : Fin grid0.N, _)
theorem idx22 : ∀ t : Fin cfg0.N, win0_22.index t (0 : Fin 2) = t.val ∧ win0_22.index t (1 : Fin 2) = 0 :=
  (by decide +kernel : ∀ t : Fin grid0.N, _)
theorem idx23 : ∀ t : Fin cfg0.N, win0_23.index t (0 : Fin 2) = t.val ∧ win0_23.index t (1 : Fin 2) = 0 :=
  (by decide +kernel : ∀ t : Fin grid0.N, _)
theorem idx24 : ∀ t : Fin cfg0.N, win0_24.index t (0 : Fin 2) = t.val ∧ win0_24.index t (1 : Fin 2) = 0 :=
  (by decide +kernel : ∀ t : Fin grid0.N, _)
theorem idx25 : ∀ t : Fin cfg0.N, win0_25.index t (0 : Fin 2) = t.val ∧ win0_25.index t (1 : Fin 2) = 0 :=
  (by decide +kernel : ∀ t : Fin grid0.N, _)
theorem idx26 : ∀ t : Fin cfg0.N, win0_26.index t (0 : Fin 2) = t.val ∧ win0_26.index t (1 : Fin 2) = 0 :=
  (by decide +kernel : ∀ t : Fin grid0.N, _)
theorem idx27 : ∀ t : Fin cfg0.N, win0_27.index t (0 : Fin 2) = t.val ∧ win0_27.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx17 : ∀ t : Fin cfg0.N, win0_17.index t (0 : Fin 2) = 0 ∧ win0_17.index t (1 : Fin 2) = 0 :=
  (by decide +kernel : ∀ t : Fin grid0.N, _)
theorem idx2 : ∀ t : Fin cfg0.N, win0_2.index t (0 : Fin 1) = 0 :=
  (by decide +kernel : ∀ t : Fin grid0.N, _)
theorem idx4 : ∀ t : Fin cfg0.N, win0_4.index t (0 : Fin 1) = 0 :=
  (by decide +kernel : ∀ t : Fin grid0.N, _)
theorem idx6 : ∀ t : Fin cfg0.N, win0_6.index t (0 : Fin 1) = 0 :=
  (by decide +kernel : ∀ t : Fin grid0.N, _)
theorem idx8 : ∀ t : Fin cfg0.N, win0_8.index t (0 : Fin 1) = 0 :=
  (by decide +kernel : ∀ t : Fin grid0.N, _)
theorem idx10 : ∀ t : Fin cfg0.N, win0_10.index t (0 : Fin 1) = 0 :=
  (by decide +kernel : ∀ t : Fin grid0.N, _)
theorem idx12 : ∀ t : Fin cfg0.N, win0_12.index t (0 : Fin 1) = 0 :=
  (by decide +kernel : ∀ t : Fin grid0.N, _)
theorem idx14 : ∀ t : Fin cfg0.N, win0_14.index t (0 : Fin 1) = 0 :=
  (by decide +kernel : ∀ t : Fin grid0.N, _)
theorem idx16 : ∀ t : Fin cfg0.N, win0_16.index t (0 : Fin 1) = 0 :=
  (by decide +kernel : ∀ t : Fin grid0.N, _)
theorem idx18 : ∀ t : Fin cfg0.N, win0_18.index t (0 : Fin 1) = 0 :=
  (by decide +kernel : ∀ t : Fin grid0.N, _)

/-! ## The blocks of the batch and of the masks: rows `1024 t …` of their arrays -/

theorem blk0 (c : Dev nD) (t : Fin cfg0.N) :
    cur2 (iblk m c 0 t : Vec Ideal S1024x256 .f32) = fun p k => cur2 (V m c main_arg0 : S65536x256.Idx → EReal) (row t p) k := by
  funext p k
  show (iblk m c 0 t : Vec Ideal S1024x256 .f32) (ix2 p k) = (V m c main_arg0 : S65536x256.Idx → EReal) (ix2 (row t p) k)
  unfold iblk
  rw [View.read_apply]
  show V m c main_arg0 _ = V m c main_arg0 _
  congr 1
  funext a
  apply Fin.ext
  match a with
  | ⟨0, _⟩ => show win0_0.index t (0 : Fin 2) * 1024 + 1 * p.val = t.val * 1024 + p.val; rw [(idx0 t).1]; omega
  | ⟨1, _⟩ => show win0_0.index t (1 : Fin 2) * 256 + 1 * k.val = k.val; rw [(idx0 t).2]; omega

theorem blk19 (c : Dev nD) (t : Fin cfg0.N) :
    cur2 (iblk m c 19 t : Vec Ideal S1024x128 .f32) = fun p k => cur2 (V m c main_arg19 : S65536x128.Idx → EReal) (row t p) k := by
  funext p k
  show (iblk m c 19 t : Vec Ideal S1024x128 .f32) (ix2 p k) = (V m c main_arg19 : S65536x128.Idx → EReal) (ix2 (row t p) k)
  unfold iblk
  rw [View.read_apply]
  show V m c main_arg19 _ = V m c main_arg19 _
  congr 1
  funext a
  apply Fin.ext
  match a with
  | ⟨0, _⟩ => show win0_19.index t (0 : Fin 2) * 1024 + 1 * p.val = t.val * 1024 + p.val; rw [(idx19 t).1]; omega
  | ⟨1, _⟩ => show win0_19.index t (1 : Fin 2) * 128 + 1 * k.val = k.val; rw [(idx19 t).2]; omega

theorem blk20 (c : Dev nD) (t : Fin cfg0.N) :
    cur2 (iblk m c 20 t : Vec Ideal S1024x256 .f32) = fun p k => cur2 (V m c main_arg20 : S65536x256.Idx → EReal) (row t p) k := by
  funext p k
  show (iblk m c 20 t : Vec Ideal S1024x256 .f32) (ix2 p k) = (V m c main_arg20 : S65536x256.Idx → EReal) (ix2 (row t p) k)
  unfold iblk
  rw [View.read_apply]
  show V m c main_arg20 _ = V m c main_arg20 _
  congr 1
  funext a
  apply Fin.ext
  match a with
  | ⟨0, _⟩ => show win0_20.index t (0 : Fin 2) * 1024 + 1 * p.val = t.val * 1024 + p.val; rw [(idx20 t).1]; omega
  | ⟨1, _⟩ => show win0_20.index t (1 : Fin 2) * 256 + 1 * k.val = k.val; rw [(idx20 t).2]; omega

theorem blk21 (c : Dev nD) (t : Fin cfg0.N) :
    cur2 (iblk m c 21 t : Vec Ideal S1024x512 .f32) = fun p k => cur2 (V m c main_arg21 : S65536x512.Idx → EReal) (row t p) k := by
  funext p k
  show (iblk m c 21 t : Vec Ideal S1024x512 .f32) (ix2 p k) = (V m c main_arg21 : S65536x512.Idx → EReal) (ix2 (row t p) k)
  unfold iblk
  rw [View.read_apply]
  show V m c main_arg21 _ = V m c main_arg21 _
  congr 1
  funext a
  apply Fin.ext
  match a with
  | ⟨0, _⟩ => show win0_21.index t (0 : Fin 2) * 1024 + 1 * p.val = t.val * 1024 + p.val; rw [(idx21 t).1]; omega
  | ⟨1, _⟩ => show win0_21.index t (1 : Fin 2) * 512 + 1 * k.val = k.val; rw [(idx21 t).2]; omega

theorem blk22 (c : Dev nD) (t : Fin cfg0.N) :
    cur2 (iblk m c 22 t : Vec Ideal S1024x256 .f32) = fun p k => cur2 (V m c main_arg22 : S65536x256.Idx → EReal) (row t p) k := by
  funext p k
  show (iblk m c 22 t : Vec Ideal S1024x256 .f32) (ix2 p k) = (V m c main_arg22 : S65536x256.Idx → EReal) (ix2 (row t p) k)
  unfold iblk
  rw [View.read_apply]
  show V m c main_arg22 _ = V m c main_arg22 _
  congr 1
  funext a
  apply Fin.ext
  match a with
  | ⟨0, _⟩ => show win0_22.index t (0 : Fin 2) * 1024 + 1 * p.val = t.val * 1024 + p.val; rw [(idx22 t).1]; omega
  | ⟨1, _⟩ => show win0_22.index t (1 : Fin 2) * 256 + 1 * k.val = k.val; rw [(idx22 t).2]; omega

theorem blk23 (c : Dev nD) (t : Fin cfg0.N) :
    cur2 (iblk m c 23 t : Vec Ideal S1024x128 .f32) = fun p k => cur2 (V m c main_arg23 : S65536x128.Idx → EReal) (row t p) k := by
  funext p k
  show (iblk m c 23 t : Vec Ideal S1024x128 .f32) (ix2 p k) = (V m c main_arg23 : S65536x128.Idx → EReal) (ix2 (row t p) k)
  unfold iblk
  rw [View.read_apply]
  show V m c main_arg23 _ = V m c main_arg23 _
  congr 1
  funext a
  apply Fin.ext
  match a with
  | ⟨0, _⟩ => show win0_23.index t (0 : Fin 2) * 1024 + 1 * p.val = t.val * 1024 + p.val; rw [(idx23 t).1]; omega
  | ⟨1, _⟩ => show win0_23.index t (1 : Fin 2) * 128 + 1 * k.val = k.val; rw [(idx23 t).2]; omega

theorem blk24 (c : Dev nD) (t : Fin cfg0.N) :
    cur2 (iblk m c 24 t : Vec Ideal S1024x64 .f32) = fun p k => cur2 (V m c main_arg24 : S65536x64.Idx → EReal) (row t p) k := by
  funext p k
  show (iblk m c 24 t : Vec Ideal S1024x64 .f32) (ix2 p k) = (V m c main_arg24 : S65536x64.Idx → EReal) (ix2 (row t p) k)
  unfold iblk
  rw [View.read_apply]
  show V m c main_arg24 _ = V m c main_arg24 _
  congr 1
  funext a
  apply Fin.ext
  match a with
  | ⟨0, _⟩ => show win0_24.index t (0 : Fin 2) * 1024 + 1 * p.val = t.val * 1024 + p.val; rw [(idx24 t).1]; omega
  | ⟨1, _⟩ => show win0_24.index t (1 : Fin 2) * 64 + 1 * k.val = k.val; rw [(idx24 t).2]; omega

theorem blk25 (c : Dev nD) (t : Fin cfg0.N) :
    cur2 (iblk m c 25 t : Vec Ideal S1024x32 .f32) = fun p k => cur2 (V m c main_arg25 : S65536x32.Idx → EReal) (row t p) k := by
  funext p k
  show (iblk m c 25 t : Vec Ideal S1024x32 .f32) (ix2 p k) = (V m c main_arg25 : S65536x32.Idx → EReal) (ix2 (row t p) k)
  unfold iblk
  rw [View.read_apply]
  show V m c main_arg25 _ = V m c main_arg25 _
  congr 1
  funext a
  apply Fin.ext
  match a with
  | ⟨0, _⟩ => show win0_25.index t (0 : Fin 2) * 1024 + 1 * p.val = t.val * 1024 + p.val; rw [(idx25 t).1]; omega
  | ⟨1, _⟩ => show win0_25.index t (1 : Fin 2) * 32 + 1 * k.val = k.val; rw [(idx25 t).2]; omega

theorem blk26 (c : Dev nD) (t : Fin cfg0.N) :
    cur2 (iblk m c 26 t : Vec Ideal S1024x16 .f32) = fun p k => cur2 (V m c main_arg26 : S65536x16.Idx → EReal) (row t p) k := by
  funext p k
  show (iblk m c 26 t : Vec Ideal S1024x16 .f32) (ix2 p k) = (V m c main_arg26 : S65536x16.Idx → EReal) (ix2 (row t p) k)
  unfold iblk
  rw [View.read_apply]
  show V m c main_arg26 _ = V m c main_arg26 _
  congr 1
  funext a
  apply Fin.ext
  match a with
  | ⟨0, _⟩ => show win0_26.index t (0 : Fin 2) * 1024 + 1 * p.val = t.val * 1024 + p.val; rw [(idx26 t).1]; omega
  | ⟨1, _⟩ => show win0_26.index t (1 : Fin 2) * 16 + 1 * k.val = k.val; rw [(idx26 t).2]; omega

/-! ## The blocks of the weights and biases: the whole arrays -/

theorem blk1 (c : Dev nD) (t : Fin cfg0.N) :
    (iblk m c 1 t : Vec Ideal S256x128 .f32) = (V m c main_arg1 : S256x128.Idx → EReal) := by
  funext y
  unfold iblk
  rw [View.read_apply]
  show V m c main_arg1 _ = V m c main_arg1 y
  congr 1
  funext a
  apply Fin.ext
  match a with
  | ⟨0, _⟩ => show win0_1.index t (0 : Fin 2) * 256 + 1 * (y 0).val = (y 0).val; rw [(idx1 t).1]; omega
  | ⟨1, _⟩ => show win0_1.index t (1 : Fin 2) * 128 + 1 * (y 1).val = (y 1).val; rw [(idx1 t).2]; omega

theorem blk3 (c : Dev nD) (t : Fin cfg0.N) :
    (iblk m c 3 t : Vec Ideal S128x256 .f32) = (V m c main_arg3 : S128x256.Idx → EReal) := by
  funext y
  unfold iblk
  rw [View.read_apply]
  show V m c main_arg3 _ = V m c main_arg3 y
  congr 1
  funext a
  apply Fin.ext
  match a with
  | ⟨0, _⟩ => show win0_3.index t (0 : Fin 2) * 128 + 1 * (y 0).val = (y 0).val; rw [(idx3 t).1]; omega
  | ⟨1, _⟩ => show win0_3.index t (1 : Fin 2) * 256 + 1 * (y 1).val = (y 1).val; rw [(idx3 t).2]; omega

theorem blk5 (c : Dev nD) (t : Fin cfg0.N) :
    (iblk m c 5 t : Vec Ideal S256x512 .f32) = (V m c main_arg5 : S256x512.Idx → EReal) := by
  funext y
  unfold iblk
  rw [View.read_apply]
  show V m c main_arg5 _ = V m c main_arg5 y
  congr 1
  funext a
  apply Fin.ext
  match a with
  | ⟨0, _⟩ => show win0_5.index t (0 : Fin 2) * 256 + 1 * (y 0).val = (y 0).val; rw [(idx5 t).1]; omega
  | ⟨1, _⟩ => show win0_5.index t (1 : Fin 2) * 512 + 1 * (y 1).val = (y 1).val; rw [(idx5 t).2]; omega

theorem blk7 (c : Dev nD) (t : Fin cfg0.N) :
    (iblk m c 7 t : Vec Ideal S512x256 .f32) = (V m c main_arg7 : S512x256.Idx → EReal) := by
  funext y
  unfold iblk
  rw [View.read_apply]
  show V m c main_arg7 _ = V m c main_arg7 y
  congr 1
  funext a
  apply Fin.ext
  match a with
  | ⟨0, _⟩ => show win0_7.index t (0 : Fin 2) * 512 + 1 * (y 0).val = (y 0).val; rw [(idx7 t).1]; omega
  | ⟨1, _⟩ => show win0_7.index t (1 : Fin 2) * 256 + 1 * (y 1).val = (y 1).val; rw [(idx7 t).2]; omega

theorem blk9 (c : Dev nD) (t : Fin cfg0.N) :
    (iblk m c 9 t : Vec Ideal S256x128 .f32) = (V m c main_arg9 : S256x128.Idx → EReal) := by
  funext y
  unfold iblk
  rw [View.read_apply]
  show V m c main_arg9 _ = V m c main_arg9 y
  congr 1
  funext a
  apply Fin.ext
  match a with
  | ⟨0, _⟩ => show win0_9.index t (0 : Fin 2) * 256 + 1 * (y 0).val = (y 0).val; rw [(idx9 t).1]; omega
  | ⟨1, _⟩ => show win0_9.index t (1 : Fin 2) * 128 + 1 * (y 1).val = (y 1).val; rw [(idx9 t).2]; omega

theorem blk11 (c : Dev nD) (t : Fin cfg0.N) :
    (iblk m c 11 t : Vec Ideal S128x64 .f32) = (V m c main_arg11 : S128x64.Idx → EReal) := by
  funext y
  unfold iblk
  rw [View.read_apply]
  show V m c main_arg11 _ = V m c main_arg11 y
  congr 1
  funext a
  apply Fin.ext
  match a with
  | ⟨0, _⟩ => show win0_11.index t (0 : Fin 2) * 128 + 1 * (y 0).val = (y 0).val; rw [(idx11 t).1]; omega
  | ⟨1, _⟩ => show win0_11.index t (1 : Fin 2) * 64 + 1 * (y 1).val = (y 1).val; rw [(idx11 t).2]; omega

theorem blk13 (c : Dev nD) (t : Fin cfg0.N) :
    (iblk m c 13 t : Vec Ideal S64x32 .f32) = (V m c main_arg13 : S64x32.Idx → EReal) := by
  funext y
  unfold iblk
  rw [View.read_apply]
  show V m c main_arg13 _ = V m c main_arg13 y
  congr 1
  funext a
  apply Fin.ext
  match a with
  | ⟨0, _⟩ => show win0_13.index t (0 : Fin 2) * 64 + 1 * (y 0).val = (y 0).val; rw [(idx13 t).1]; omega
  | ⟨1, _⟩ => show win0_13.index t (1 : Fin 2) * 32 + 1 * (y 1).val = (y 1).val; rw [(idx13 t).2]; omega

theorem blk15 (c : Dev nD) (t : Fin cfg0.N) :
    (iblk m c 15 t : Vec Ideal S32x16 .f32) = (V m c main_arg15 : S32x16.Idx → EReal) := by
  funext y
  unfold iblk
  rw [View.read_apply]
  show V m c main_arg15 _ = V m c main_arg15 y
  congr 1
  funext a
  apply Fin.ext
  match a with
  | ⟨0, _⟩ => show win0_15.index t (0 : Fin 2) * 32 + 1 * (y 0).val = (y 0).val; rw [(idx15 t).1]; omega
  | ⟨1, _⟩ => show win0_15.index t (1 : Fin 2) * 16 + 1 * (y 1).val = (y 1).val; rw [(idx15 t).2]; omega

theorem blk17 (c : Dev nD) (t : Fin cfg0.N) :
    (iblk m c 17 t : Vec Ideal S16x10 .f32) = (V m c main_arg17 : S16x10.Idx → EReal) := by
  funext y
  unfold iblk
  rw [View.read_apply]
  show V m c main_arg17 _ = V m c main_arg17 y
  congr 1
  funext a
  apply Fin.ext
  match a with
  | ⟨0, _⟩ => show win0_17.index t (0 : Fin 2) * 16 + 1 * (y 0).val = (y 0).val; rw [(idx17 t).1]; omega
  | ⟨1, _⟩ => show win0_17.index t (1 : Fin 2) * 10 + 1 * (y 1).val = (y 1).val; rw [(idx17 t).2]; omega

theorem blk2 (c : Dev nD) (t : Fin cfg0.N) :
    (iblk m c 2 t : Vec Ideal S128 .f32) = (V m c main_arg2 : S128.Idx → EReal) := by
  funext y
  unfold iblk
  rw [View.read_apply]
  show V m c main_arg2 _ = V m c main_arg2 y
  congr 1
  funext a
  apply Fin.ext
  match a with
  | ⟨0, _⟩ => show win0_2.index t (0 : Fin 1) * 128 + 1 * (y 0).val = (y 0).val; rw [idx2 t]; omega

theorem blk4 (c : Dev nD) (t : Fin cfg0.N) :
    (iblk m c 4 t : Vec Ideal S256 .f32) = (V m c main_arg4 : S256.Idx → EReal) := by
  funext y
  unfold iblk
  rw [View.read_apply]
  show V m c main_arg4 _ = V m c main_arg4 y
  congr 1
  funext a
  apply Fin.ext
  match a with
  | ⟨0, _⟩ => show win0_4.index t (0 : Fin 1) * 256 + 1 * (y 0).val = (y 0).val; rw [idx4 t]; omega

theorem blk6 (c : Dev nD) (t : Fin cfg0.N) :
    (iblk m c 6 t : Vec Ideal S512 .f32) = (V m c main_arg6 : S512.Idx → EReal) := by
  funext y
  unfold iblk
  rw [View.read_apply]
  show V m c main_arg6 _ = V m c main_arg6 y
  congr 1
  funext a
  apply Fin.ext
  match a with
  | ⟨0, _⟩ => show win0_6.index t (0 : Fin 1) * 512 + 1 * (y 0).val = (y 0).val; rw [idx6 t]; omega

theorem blk8 (c : Dev nD) (t : Fin cfg0.N) :
    (iblk m c 8 t : Vec Ideal S256 .f32) = (V m c main_arg8 : S256.Idx → EReal) := by
  funext y
  unfold iblk
  rw [View.read_apply]
  show V m c main_arg8 _ = V m c main_arg8 y
  congr 1
  funext a
  apply Fin.ext
  match a with
  | ⟨0, _⟩ => show win0_8.index t (0 : Fin 1) * 256 + 1 * (y 0).val = (y 0).val; rw [idx8 t]; omega

theorem blk10 (c : Dev nD) (t : Fin cfg0.N) :
    (iblk m c 10 t : Vec Ideal S128 .f32) = (V m c main_arg10 : S128.Idx → EReal) := by
  funext y
  unfold iblk
  rw [View.read_apply]
  show V m c main_arg10 _ = V m c main_arg10 y
  congr 1
  funext a
  apply Fin.ext
  match a with
  | ⟨0, _⟩ => show win0_10.index t (0 : Fin 1) * 128 + 1 * (y 0).val = (y 0).val; rw [idx10 t]; omega

theorem blk12 (c : Dev nD) (t : Fin cfg0.N) :
    (iblk m c 12 t : Vec Ideal S64 .f32) = (V m c main_arg12 : S64.Idx → EReal) := by
  funext y
  unfold iblk
  rw [View.read_apply]
  show V m c main_arg12 _ = V m c main_arg12 y
  congr 1
  funext a
  apply Fin.ext
  match a with
  | ⟨0, _⟩ => show win0_12.index t (0 : Fin 1) * 64 + 1 * (y 0).val = (y 0).val; rw [idx12 t]; omega

theorem blk14 (c : Dev nD) (t : Fin cfg0.N) :
    (iblk m c 14 t : Vec Ideal S32 .f32) = (V m c main_arg14 : S32.Idx → EReal) := by
  funext y
  unfold iblk
  rw [View.read_apply]
  show V m c main_arg14 _ = V m c main_arg14 y
  congr 1
  funext a
  apply Fin.ext
  match a with
  | ⟨0, _⟩ => show win0_14.index t (0 : Fin 1) * 32 + 1 * (y 0).val = (y 0).val; rw [idx14 t]; omega

theorem blk16 (c : Dev nD) (t : Fin cfg0.N) :
    (iblk m c 16 t : Vec Ideal S16 .f32) = (V m c main_arg16 : S16.Idx → EReal) := by
  funext y
  unfold iblk
  rw [View.read_apply]
  show V m c main_arg16 _ = V m c main_arg16 y
  congr 1
  funext a
  apply Fin.ext
  match a with
  | ⟨0, _⟩ => show win0_16.index t (0 : Fin 1) * 16 + 1 * (y 0).val = (y 0).val; rw [idx16 t]; omega

theorem blk18 (c : Dev nD) (t : Fin cfg0.N) :
    (iblk m c 18 t : Vec Ideal S10 .f32) = (V m c main_arg18 : S10.Idx → EReal) := by
  funext y
  unfold iblk
  rw [View.read_apply]
  show V m c main_arg18 _ = V m c main_arg18 y
  congr 1
  funext a
  apply Fin.ext
  match a with
  | ⟨0, _⟩ => show win0_18.index t (0 : Fin 1) * 10 + 1 * (y 0).val = (y 0).val; rw [idx18 t]; omega

/-! ## What a point writes back -/

theorem hz2 : (![0, 0] : Fin 2 → Nat) = fun _ => 0 := funext fun a => by fin_cases a <;> rfl
theorem hz1 : (![0] : Fin 1 → Nat) = fun _ => 0 := funext fun a => by fin_cases a; rfl

/-- The whole result of the arrays as the region finds them. -/
abbrev result (c : Dev nD) : S65536x10.Idx → EReal :=
  whole (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (V m c main_arg19) (V m c main_arg20) (V m c main_arg21) (V m c main_arg22) (V m c main_arg23) (V m c main_arg24) (V m c main_arg25) (V m c main_arg26)

/-- Row `p` of point `t`'s stored tile is row `1024 t + p` of the whole result: the tile is the
    network of its blocks, the blocks are those rows of the batch and the masks, and the network
    is row by row. -/
theorem stored_rows (c : Dev nD) (t : Fin cfg0.N) (p : Fin 1024) (q : Fin 10) :
    out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (ix2 p q)
      = result m c (ix2 (row t p) q) := by
  unfold out0_27
  rw [View.canon_unit_zero hz2]
  simp only [View.ld_unit_zero (S := S1024x256) hz2, View.ld_unit_zero (S := S256x128) hz2, View.ld_unit_zero (S := S128) hz1, View.ld_unit_zero (S := S128x256) hz2, View.ld_unit_zero (S := S256) hz1, View.ld_unit_zero (S := S256x512) hz2, View.ld_unit_zero (S := S512) hz1, View.ld_unit_zero (S := S512x256) hz2, View.ld_unit_zero (S := S128x64) hz2, View.ld_unit_zero (S := S64) hz1, View.ld_unit_zero (S := S64x32) hz2, View.ld_unit_zero (S := S32) hz1, View.ld_unit_zero (S := S32x16) hz2, View.ld_unit_zero (S := S16) hz1, View.ld_unit_zero (S := S16x10) hz2, View.ld_unit_zero (S := S10) hz1, View.ld_unit_zero (S := S1024x128) hz2, View.ld_unit_zero (S := S1024x512) hz2, View.ld_unit_zero (S := S1024x64) hz2, View.ld_unit_zero (S := S1024x32) hz2, View.ld_unit_zero (S := S1024x16) hz2]
  refine (Tile.stored_ix2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) p q).trans ?_
  rw [blk0 m c t, blk19 m c t, blk20 m c t, blk21 m c t, blk22 m c t, blk23 m c t, blk24 m c t, blk25 m c t, blk26 m c t]
  rw [blk1 m c t, blk3 m c t, blk5 m c t, blk7 m c t, blk9 m c t, blk11 m c t, blk13 m c t, blk15 m c t, blk17 m c t, blk2 m c t, blk4 m c t, blk6 m c t, blk8 m c t, blk10 m c t, blk12 m c t, blk14 m c t, blk16 m c t, blk18 m c t]
  exact congrFun (congrFun (net_rows (row t)
      (cur2 (V m c main_arg0 : S65536x256.Idx → EReal))
      (cur2 (V m c main_arg1 : S256x128.Idx → EReal))
      (cur1 (V m c main_arg2 : S128.Idx → EReal))
      (cur2 (V m c main_arg3 : S128x256.Idx → EReal))
      (cur1 (V m c main_arg4 : S256.Idx → EReal))
      (cur2 (V m c main_arg5 : S256x512.Idx → EReal))
      (cur1 (V m c main_arg6 : S512.Idx → EReal))
      (cur2 (V m c main_arg7 : S512x256.Idx → EReal))
      (cur1 (V m c main_arg8 : S256.Idx → EReal))
      (cur2 (V m c main_arg9 : S256x128.Idx → EReal))
      (cur1 (V m c main_arg10 : S128.Idx → EReal))
      (cur2 (V m c main_arg11 : S128x64.Idx → EReal))
      (cur1 (V m c main_arg12 : S64.Idx → EReal))
      (cur2 (V m c main_arg13 : S64x32.Idx → EReal))
      (cur1 (V m c main_arg14 : S32.Idx → EReal))
      (cur2 (V m c main_arg15 : S32x16.Idx → EReal))
      (cur1 (V m c main_arg16 : S16.Idx → EReal))
      (cur2 (V m c main_arg17 : S16x10.Idx → EReal))
      (cur1 (V m c main_arg18 : S10.Idx → EReal))
      (cur2 (V m c main_arg19 : S65536x128.Idx → EReal))
      (cur2 (V m c main_arg20 : S65536x256.Idx → EReal))
      (cur2 (V m c main_arg21 : S65536x512.Idx → EReal))
      (cur2 (V m c main_arg22 : S65536x256.Idx → EReal))
      (cur2 (V m c main_arg23 : S65536x128.Idx → EReal))
      (cur2 (V m c main_arg24 : S65536x64.Idx → EReal))
      (cur2 (V m c main_arg25 : S65536x32.Idx → EReal))
      (cur2 (V m c main_arg26 : S65536x16.Idx → EReal))) p) q

/-- A `[1024, 10]` tile whose rows are rows `1024 t …` of an array is block `t` of that array. -/
theorem cut_eq_read (Z : Vec Ideal S1024x10 .f32) (Gw : S65536x10.Idx → EReal) (t : Fin cfg0.N)
    (h : ∀ (p : Fin 1024) (q : Fin 10), Z (ix2 p q) = Gw (ix2 (row t p) q)) :
    (cfg0.win 27).cut (grid0.coords t) Z = ((cfg0.win 27).blk t).view.read (Elt Ideal) Gw := by
  funext y
  show Z y = Gw (((cfg0.win 27).blk t).view.emb y)
  have e : ((cfg0.win 27).blk t).view.emb y = ix2 (row t (y 0)) (y 1) := by
    funext a
    apply Fin.ext
    match a with
    | ⟨0, _⟩ => show win0_27.index t (0 : Fin 2) * 1024 + 1 * (y 0).val = t.val * 1024 + (y 0).val; rw [(idx27 t).1]; omega
    | ⟨1, _⟩ => show win0_27.index t (1 : Fin 2) * 10 + 1 * (y 1).val = (y 1).val; rw [(idx27 t).2]; omega
  rw [e]
  exact (congrArg Z (eq_ix2 (n0 := 1024) (n1 := 10) y)).trans (h (y 0) (y 1))

/-- What point `t` writes back is block `t` of the whole result. -/
theorem flushed_eq (c : Dev nD) (t : Fin cfg0.N) :
    (dats m 0 c).flushed 27 t = ((cfg0.win 27).blk t).view.read (Elt Ideal) (result m c) := by
  rw [ValueP.flushed27]
  exact cut_eq_read _ (result m c) t (stored_rows m c t)

/-! ## The 64 blocks tile the result array -/

/-- An index is in point `t`'s block iff each coordinate is in the block's range on its axis. -/
theorem mem_blk (t : Fin cfg0.N) (i : S65536x10.Idx) :
    i ∈ ((cfg0.win 27).blk t).view.set ↔ ∀ a : Fin 2, win0_27.index t a * S1024x10.size a ≤ (i a).val ∧ (i a).val < win0_27.index t a * S1024x10.size a + S1024x10.size a := by
  show i ∈ ((View.whole main_v0).slice (win0_27.rect t)).set ↔ _
  rw [View.set_slice_whole, Rect.mem_set_unit]
  exact Iff.rfl

/-- Row `r` is in the block of point `r / 1024`. -/
theorem cover (i : S65536x10.Idx) :
    ∃ t : Fin cfg0.N, (cfg0.win 27).flush t = true ∧ i ∈ ((cfg0.win 27).blk t).view.set := by
  have hi0 : (i 0).val < 65536 := (i 0).isLt
  have hi1 : (i 1).val < 10 := (i 1).isLt
  have hN : cfg0.N = 64 := N_0
  refine ⟨⟨(i 0).val / 1024, by rw [hN]; omega⟩, flush0_27 _, ?_⟩
  rw [mem_blk]
  obtain ⟨e0, e1⟩ := idx27 ⟨(i 0).val / 1024, by rw [hN]; omega⟩
  intro a
  match a with
  | ⟨0, _⟩ =>
    show win0_27.index _ (0 : Fin 2) * 1024 ≤ (i 0).val ∧ (i 0).val < win0_27.index _ (0 : Fin 2) * 1024 + 1024
    rw [e0]
    show (i 0).val / 1024 * 1024 ≤ (i 0).val ∧ (i 0).val < (i 0).val / 1024 * 1024 + 1024
    omega
  | ⟨1, _⟩ =>
    show win0_27.index _ (1 : Fin 2) * 10 ≤ (i 1).val ∧ (i 1).val < win0_27.index _ (1 : Fin 2) * 10 + 10
    rw [e1]
    omega

/-- The result array after the run is the whole result. -/
theorem final (c : Dev nD) : (dats m 0 c).arrAt 27 cfg0.N = result m c :=
  (dats m 0 c).arrAt_eq_of_cover 27 (result m c) (fun t _ => flushed_eq m c t) cover

/-! ## The run -/

/-- Every weakly fair execution of the idealized kernel ends with the result array at the network
    of the argument arrays, and those unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26) :=
  (θ_run defs _ _).mono (fun r h c => ⟨(h c).1.trans (final m c), (h c).2⟩) (ValueP.run_blocks m ρ)

end Cert.KernelIdeal.Blocks

end
-- ==== Proof.RefNet.lean ====
/-
  The reference computes the network.

  Its program is read one operation at a time: a layer is a product of the previous
  activations with the weights, the bias broadcast first to one row and then down the rows, a
  maximum with a broadcast zero, and the product with the mask.  Read at `(p, q)` each layer is
  the layer function of the previous stage, so the result is the network of the arguments.
-/
import proofs.«132136_j61984968016173_1_alg».proof.Proof.Gen.ReferenceIdeal.Read
import proofs.«132136_j61984968016173_1_alg».proof.Proof.Layer

noncomputable section

open scoped BigOperators

namespace Cert.ReferenceIdeal.RefNet

open Cert.ReferenceIdeal Cert.MLP Idealize.ShloMosaic Idealize.ShloMosaic.ValueIdx

variable (x0 : FVec Ideal S65536x256 .f32)
  (x1 : FVec Ideal S256x128 .f32)
  (x2 : FVec Ideal S128 .f32)
  (x3 : FVec Ideal S128x256 .f32)
  (x4 : FVec Ideal S256 .f32)
  (x5 : FVec Ideal S256x512 .f32)
  (x6 : FVec Ideal S512 .f32)
  (x7 : FVec Ideal S512x256 .f32)
  (x8 : FVec Ideal S256 .f32)
  (x9 : FVec Ideal S256x128 .f32)
  (x10 : FVec Ideal S128 .f32)
  (x11 : FVec Ideal S128x64 .f32)
  (x12 : FVec Ideal S64 .f32)
  (x13 : FVec Ideal S64x32 .f32)
  (x14 : FVec Ideal S32 .f32)
  (x15 : FVec Ideal S32x16 .f32)
  (x16 : FVec Ideal S16 .f32)
  (x17 : FVec Ideal S16x10 .f32)
  (x18 : FVec Ideal S10 .f32)
  (x19 : FVec Ideal S65536x128 .f32)
  (x20 : FVec Ideal S65536x256 .f32)
  (x21 : FVec Ideal S65536x512 .f32)
  (x22 : FVec Ideal S65536x256 .f32)
  (x23 : FVec Ideal S65536x128 .f32)
  (x24 : FVec Ideal S65536x64 .f32)
  (x25 : FVec Ideal S65536x32 .f32)
  (x26 : FVec Ideal S65536x16 .f32)

/-! ## Where each operation reads its operands, in coordinates -/

theorem lidx0 (p : Fin 65536) (q : Fin 128) (k : Fin 256) : Read.lidx_main_v0 (ix2 p q) k = ix2 p k :=
  funext fun a => by match a with | ⟨0, _⟩ => rfl | ⟨1, _⟩ => rfl
theorem ridx0 (p : Fin 65536) (q : Fin 128) (k : Fin 256) : Read.ridx_main_v0 (ix2 p q) k = ix2 k q :=
  funext fun a => by match a with | ⟨0, _⟩ => rfl | ⟨1, _⟩ => rfl
theorem bidx0 (p : Fin 65536) (q : Fin 128) : Read.idx_main_v1 (Read.idx_main_v2 (ix2 p q)) = ix1 q :=
  funext fun a => by match a with | ⟨0, _⟩ => rfl

theorem lidx6 (p : Fin 65536) (q : Fin 256) (k : Fin 128) : Read.lidx_main_v6 (ix2 p q) k = ix2 p k :=
  funext fun a => by match a with | ⟨0, _⟩ => rfl | ⟨1, _⟩ => rfl
theorem ridx6 (p : Fin 65536) (q : Fin 256) (k : Fin 128) : Read.ridx_main_v6 (ix2 p q) k = ix2 k q :=
  funext fun a => by match a with | ⟨0, _⟩ => rfl | ⟨1, _⟩ => rfl
theorem bidx6 (p : Fin 65536) (q : Fin 256) : Read.idx_main_v7 (Read.idx_main_v8 (ix2 p q)) = ix1 q :=
  funext fun a => by match a with | ⟨0, _⟩ => rfl

theorem lidx12 (p : Fin 65536) (q : Fin 512) (k : Fin 256) : Read.lidx_main_v12 (ix2 p q) k = ix2 p k :=
  funext fun a => by match a with | ⟨0, _⟩ => rfl | ⟨1, _⟩ => rfl
theorem ridx12 (p : Fin 65536) (q : Fin 512) (k : Fin 256) : Read.ridx_main_v12 (ix2 p q) k = ix2 k q :=
  funext fun a => by match a with | ⟨0, _⟩ => rfl | ⟨1, _⟩ => rfl
theorem bidx12 (p : Fin 65536) (q : Fin 512) : Read.idx_main_v13 (Read.idx_main_v14 (ix2 p q)) = ix1 q :=
  funext fun a => by match a with | ⟨0, _⟩ => rfl

theorem lidx18 (p : Fin 65536) (q : Fin 256) (k : Fin 512) : Read.lidx_main_v18 (ix2 p q) k = ix2 p k :=
  funext fun a => by match a with | ⟨0, _⟩ => rfl | ⟨1, _⟩ => rfl
theorem ridx18 (p : Fin 65536) (q : Fin 256) (k : Fin 512) : Read.ridx_main_v18 (ix2 p q) k = ix2 k q :=
  funext fun a => by match a with | ⟨0, _⟩ => rfl | ⟨1, _⟩ => rfl
theorem bidx18 (p : Fin 65536) (q : Fin 256) : Read.idx_main_v19 (Read.idx_main_v20 (ix2 p q)) = ix1 q :=
  funext fun a => by match a with | ⟨0, _⟩ => rfl

theorem lidx24 (p : Fin 65536) (q : Fin 128) (k : Fin 256) : Read.lidx_main_v24 (ix2 p q) k = ix2 p k :=
  funext fun a => by match a with | ⟨0, _⟩ => rfl | ⟨1, _⟩ => rfl
theorem ridx24 (p : Fin 65536) (q : Fin 128) (k : Fin 256) : Read.ridx_main_v24 (ix2 p q) k = ix2 k q :=
  funext fun a => by match a with | ⟨0, _⟩ => rfl | ⟨1, _⟩ => rfl
theorem bidx24 (p : Fin 65536) (q : Fin 128) : Read.idx_main_v25 (Read.idx_main_v26 (ix2 p q)) = ix1 q :=
  funext fun a => by match a with | ⟨0, _⟩ => rfl

theorem lidx30 (p : Fin 65536) (q : Fin 64) (k : Fin 128) : Read.lidx_main_v30 (ix2 p q) k = ix2 p k :=
  funext fun a => by match a with | ⟨0, _⟩ => rfl | ⟨1, _⟩ => rfl
theorem ridx30 (p : Fin 65536) (q : Fin 64) (k : Fin 128) : Read.ridx_main_v30 (ix2 p q) k = ix2 k q :=
  funext fun a => by match a with | ⟨0, _⟩ => rfl | ⟨1, _⟩ => rfl
theorem bidx30 (p : Fin 65536) (q : Fin 64) : Read.idx_main_v31 (Read.idx_main_v32 (ix2 p q)) = ix1 q :=
  funext fun a => by match a with | ⟨0, _⟩ => rfl

theorem lidx36 (p : Fin 65536) (q : Fin 32) (k : Fin 64) : Read.lidx_main_v36 (ix2 p q) k = ix2 p k :=
  funext fun a => by match a with | ⟨0, _⟩ => rfl | ⟨1, _⟩ => rfl
theorem ridx36 (p : Fin 65536) (q : Fin 32) (k : Fin 64) : Read.ridx_main_v36 (ix2 p q) k = ix2 k q :=
  funext fun a => by match a with | ⟨0, _⟩ => rfl | ⟨1, _⟩ => rfl
theorem bidx36 (p : Fin 65536) (q : Fin 32) : Read.idx_main_v37 (Read.idx_main_v38 (ix2 p q)) = ix1 q :=
  funext fun a => by match a with | ⟨0, _⟩ => rfl

theorem lidx42 (p : Fin 65536) (q : Fin 16) (k : Fin 32) : Read.lidx_main_v42 (ix2 p q) k = ix2 p k :=
  funext fun a => by match a with | ⟨0, _⟩ => rfl | ⟨1, _⟩ => rfl
theorem ridx42 (p : Fin 65536) (q : Fin 16) (k : Fin 32) : Read.ridx_main_v42 (ix2 p q) k = ix2 k q :=
  funext fun a => by match a with | ⟨0, _⟩ => rfl | ⟨1, _⟩ => rfl
theorem bidx42 (p : Fin 65536) (q : Fin 16) : Read.idx_main_v43 (Read.idx_main_v44 (ix2 p q)) = ix1 q :=
  funext fun a => by match a with | ⟨0, _⟩ => rfl

theorem lidx48 (p : Fin 65536) (q : Fin 10) (k : Fin 16) : Read.lidx_main_v48 (ix2 p q) k = ix2 p k :=
  funext fun a => by match a with | ⟨0, _⟩ => rfl | ⟨1, _⟩ => rfl
theorem ridx48 (p : Fin 65536) (q : Fin 10) (k : Fin 16) : Read.ridx_main_v48 (ix2 p q) k = ix2 k q :=
  funext fun a => by match a with | ⟨0, _⟩ => rfl | ⟨1, _⟩ => rfl
theorem bidx48 (p : Fin 65536) (q : Fin 10) : Read.idx_main_v49 (Read.idx_main_v50 (ix2 p q)) = ix1 q :=
  funext fun a => by match a with | ⟨0, _⟩ => rfl

/-! ## The layers -/

/-- Layer 1: the stage after it is the layer function of the stage before it. -/
theorem stage1 :
    cur2 (Read.val_main_v5 (F := Ideal) x0 x1 x2 x19)
      = hid (cur2 x0) (cur2 x1) (cur1 x2) (cur2 x19) := by
  funext p q
  show Read.val_main_v5 (F := Ideal) x0 x1 x2 x19 (ix2 p q) = _
  rw [Read.val_main_v5_apply, Read.val_main_v4_apply, Read.val_main_v3_apply, Read.val_main_v0_apply,
    Read.val_main_v2_apply, Read.val_main_v1_apply, Read.val_main_call0_v0_apply, Read.val_main_call0_cst_apply]
  simp only [lidx0, ridx0, bidx0]
  simp only [Ideal.mulf_def, Ideal.maximumf_def, Ideal.addf_def, Ideal.ofBits_def, Ideal.ofBits_zero_f32]
  rfl

/-- Layer 2: the stage after it is the layer function of the stage before it. -/
theorem stage2 :
    cur2 (Read.val_main_v11 (F := Ideal) x0 x1 x2 x3 x4 x19 x20)
      = hid (cur2 (Read.val_main_v5 (F := Ideal) x0 x1 x2 x19)) (cur2 x3) (cur1 x4) (cur2 x20) := by
  funext p q
  show Read.val_main_v11 (F := Ideal) x0 x1 x2 x3 x4 x19 x20 (ix2 p q) = _
  rw [Read.val_main_v11_apply, Read.val_main_v10_apply, Read.val_main_v9_apply, Read.val_main_v6_apply,
    Read.val_main_v8_apply, Read.val_main_v7_apply, Read.val_main_call1_v0_apply, Read.val_main_call1_cst_apply]
  simp only [lidx6, ridx6, bidx6]
  simp only [Ideal.mulf_def, Ideal.maximumf_def, Ideal.addf_def, Ideal.ofBits_def, Ideal.ofBits_zero_f32]
  rfl

/-- Layer 3: the stage after it is the layer function of the stage before it. -/
theorem stage3 :
    cur2 (Read.val_main_v17 (F := Ideal) x0 x1 x2 x3 x4 x5 x6 x19 x20 x21)
      = hid (cur2 (Read.val_main_v11 (F := Ideal) x0 x1 x2 x3 x4 x19 x20)) (cur2 x5) (cur1 x6) (cur2 x21) := by
  funext p q
  show Read.val_main_v17 (F := Ideal) x0 x1 x2 x3 x4 x5 x6 x19 x20 x21 (ix2 p q) = _
  rw [Read.val_main_v17_apply, Read.val_main_v16_apply, Read.val_main_v15_apply, Read.val_main_v12_apply,
    Read.val_main_v14_apply, Read.val_main_v13_apply, Read.val_main_call2_v0_apply, Read.val_main_call2_cst_apply]
  simp only [lidx12, ridx12, bidx12]
  simp only [Ideal.mulf_def, Ideal.maximumf_def, Ideal.addf_def, Ideal.ofBits_def, Ideal.ofBits_zero_f32]
  rfl

/-- Layer 4: the stage after it is the layer function of the stage before it. -/
theorem stage4 :
    cur2 (Read.val_main_v23 (F := Ideal) x0 x1 x2 x3 x4 x5 x6 x7 x8 x19 x20 x21 x22)
      = hid (cur2 (Read.val_main_v17 (F := Ideal) x0 x1 x2 x3 x4 x5 x6 x19 x20 x21)) (cur2 x7) (cur1 x8) (cur2 x22) := by
  funext p q
  show Read.val_main_v23 (F := Ideal) x0 x1 x2 x3 x4 x5 x6 x7 x8 x19 x20 x21 x22 (ix2 p q) = _
  rw [Read.val_main_v23_apply, Read.val_main_v22_apply, Read.val_main_v21_apply, Read.val_main_v18_apply,
    Read.val_main_v20_apply, Read.val_main_v19_apply, Read.val_main_call3_v0_apply, Read.val_main_call3_cst_apply]
  simp only [lidx18, ridx18, bidx18]
  simp only [Ideal.mulf_def, Ideal.maximumf_def, Ideal.addf_def, Ideal.ofBits_def, Ideal.ofBits_zero_f32]
  rfl

/-- Layer 5: the stage after it is the layer function of the stage before it. -/
theorem stage5 :
    cur2 (Read.val_main_v29 (F := Ideal) x0 x1 x2 x3 x4 x5 x6 x7 x8 x9 x10 x19 x20 x21 x22 x23)
      = hid (cur2 (Read.val_main_v23 (F := Ideal) x0 x1 x2 x3 x4 x5 x6 x7 x8 x19 x20 x21 x22)) (cur2 x9) (cur1 x10) (cur2 x23) := by
  funext p q
  show Read.val_main_v29 (F := Ideal) x0 x1 x2 x3 x4 x5 x6 x7 x8 x9 x10 x19 x20 x21 x22 x23 (ix2 p q) = _
  rw [Read.val_main_v29_apply, Read.val_main_v28_apply, Read.val_main_v27_apply, Read.val_main_v24_apply,
    Read.val_main_v26_apply, Read.val_main_v25_apply, Read.val_main_call4_v0_apply, Read.val_main_call4_cst_apply]
  simp only [lidx24, ridx24, bidx24]
  simp only [Ideal.mulf_def, Ideal.maximumf_def, Ideal.addf_def, Ideal.ofBits_def, Ideal.ofBits_zero_f32]
  rfl

/-- Layer 6: the stage after it is the layer function of the stage before it. -/
theorem stage6 :
    cur2 (Read.val_main_v35 (F := Ideal) x0 x1 x2 x3 x4 x5 x6 x7 x8 x9 x10 x11 x12 x19 x20 x21 x22 x23 x24)
      = hid (cur2 (Read.val_main_v29 (F := Ideal) x0 x1 x2 x3 x4 x5 x6 x7 x8 x9 x10 x19 x20 x21 x22 x23)) (cur2 x11) (cur1 x12) (cur2 x24) := by
  funext p q
  show Read.val_main_v35 (F := Ideal) x0 x1 x2 x3 x4 x5 x6 x7 x8 x9 x10 x11 x12 x19 x20 x21 x22 x23 x24 (ix2 p q) = _
  rw [Read.val_main_v35_apply, Read.val_main_v34_apply, Read.val_main_v33_apply, Read.val_main_v30_apply,
    Read.val_main_v32_apply, Read.val_main_v31_apply, Read.val_main_call5_v0_apply, Read.val_main_call5_cst_apply]
  simp only [lidx30, ridx30, bidx30]
  simp only [Ideal.mulf_def, Ideal.maximumf_def, Ideal.addf_def, Ideal.ofBits_def, Ideal.ofBits_zero_f32]
  rfl

/-- Layer 7: the stage after it is the layer function of the stage before it. -/
theorem stage7 :
    cur2 (Read.val_main_v41 (F := Ideal) x0 x1 x2 x3 x4 x5 x6 x7 x8 x9 x10 x11 x12 x13 x14 x19 x20 x21 x22 x23 x24 x25)
      = hid (cur2 (Read.val_main_v35 (F := Ideal) x0 x1 x2 x3 x4 x5 x6 x7 x8 x9 x10 x11 x12 x19 x20 x21 x22 x23 x24)) (cur2 x13) (cur1 x14) (cur2 x25) := by
  funext p q
  show Read.val_main_v41 (F := Ideal) x0 x1 x2 x3 x4 x5 x6 x7 x8 x9 x10 x11 x12 x13 x14 x19 x20 x21 x22 x23 x24 x25 (ix2 p q) = _
  rw [Read.val_main_v41_apply, Read.val_main_v40_apply, Read.val_main_v39_apply, Read.val_main_v36_apply,
    Read.val_main_v38_apply, Read.val_main_v37_apply, Read.val_main_call6_v0_apply, Read.val_main_call6_cst_apply]
  simp only [lidx36, ridx36, bidx36]
  simp only [Ideal.mulf_def, Ideal.maximumf_def, Ideal.addf_def, Ideal.ofBits_def, Ideal.ofBits_zero_f32]
  rfl

/-- Layer 8: the stage after it is the layer function of the stage before it. -/
theorem stage8 :
    cur2 (Read.val_main_v47 (F := Ideal) x0 x1 x2 x3 x4 x5 x6 x7 x8 x9 x10 x11 x12 x13 x14 x15 x16 x19 x20 x21 x22 x23 x24 x25 x26)
      = hid (cur2 (Read.val_main_v41 (F := Ideal) x0 x1 x2 x3 x4 x5 x6 x7 x8 x9 x10 x11 x12 x13 x14 x19 x20 x21 x22 x23 x24 x25)) (cur2 x15) (cur1 x16) (cur2 x26) := by
  funext p q
  show Read.val_main_v47 (F := Ideal) x0 x1 x2 x3 x4 x5 x6 x7 x8 x9 x10 x11 x12 x13 x14 x15 x16 x19 x20 x21 x22 x23 x24 x25 x26 (ix2 p q) = _
  rw [Read.val_main_v47_apply, Read.val_main_v46_apply, Read.val_main_v45_apply, Read.val_main_v42_apply,
    Read.val_main_v44_apply, Read.val_main_v43_apply, Read.val_main_call7_v0_apply, Read.val_main_call7_cst_apply]
  simp only [lidx42, ridx42, bidx42]
  simp only [Ideal.mulf_def, Ideal.maximumf_def, Ideal.addf_def, Ideal.ofBits_def, Ideal.ofBits_zero_f32]
  rfl

/-- The last layer: the affine map of the eighth stage. -/
theorem last (p : Fin 65536) (q : Fin 10) :
    Read.val_main_v51 (F := Ideal) x0 x1 x2 x3 x4 x5 x6 x7 x8 x9 x10 x11 x12 x13 x14 x15 x16 x17 x18 x19 x20 x21 x22 x23 x24 x25 x26 (ix2 p q)
      = lin (cur2 (Read.val_main_v47 (F := Ideal) x0 x1 x2 x3 x4 x5 x6 x7 x8 x9 x10 x11 x12 x13 x14 x15 x16 x19 x20 x21 x22 x23 x24 x25 x26)) (cur2 x17) (cur1 x18) p q := by
  rw [Read.val_main_v51_apply, Read.val_main_v48_apply, Read.val_main_v50_apply, Read.val_main_v49_apply]
  simp only [lidx48, ridx48, bidx48]
  simp only [Ideal.addf_def]
  rfl

/-- The reference's result, entry by entry, is the network of its arguments. -/
theorem result_ix2 (p : Fin 65536) (q : Fin 10) :
    Read.val_main_v51 (F := Ideal) x0 x1 x2 x3 x4 x5 x6 x7 x8 x9 x10 x11 x12 x13 x14 x15 x16 x17 x18 x19 x20 x21 x22 x23 x24 x25 x26 (ix2 p q)
      = net (cur2 x0) (cur2 x1) (cur1 x2) (cur2 x3) (cur1 x4) (cur2 x5) (cur1 x6) (cur2 x7) (cur1 x8) (cur2 x9) (cur1 x10) (cur2 x11) (cur1 x12) (cur2 x13) (cur1 x14) (cur2 x15) (cur1 x16) (cur2 x17) (cur1 x18) (cur2 x19) (cur2 x20) (cur2 x21) (cur2 x22) (cur2 x23) (cur2 x24) (cur2 x25) (cur2 x26) p q := by
  rw [last, stage8, stage7, stage6, stage5, stage4, stage3, stage2, stage1]
  rfl

end Cert.ReferenceIdeal.RefNet

end
-- ==== Proof.lean ====
/-
  A nine-layer perceptron with dropout masks, computed by tiles of 1024 samples, against the
  same network computed on the whole batch.

  Both programs compute, for every sample `r` and class `j`, the network

      h₀ = x,   hₗ = max (hₗ₋₁ · Wₗ + bₗ) 0 ⊙ mₗ  (l = 1 … 8),   out = h₈ · W₉ + b₉

  on the extended reals (Proof/Net.lean).  The kernel narrows the activations and the weights to
  the matrix unit's input format before each product, which at the ideal values is the identity,
  and accumulates each product into zero; the reference's products are plain `dot_general`s: both
  are the sum over the contracted coordinate.  The rectifier is the same maximum with zero on
  both sides, so no law of the extended reals beyond reading the operations is used, and the
  inputs' finiteness is never opened.

  * Proof/LibDot.lean: a plain product read at an entry (general).
  * Proof/Layer.lean: one layer as the tile computes it, at an entry.
  * Proof/Tile.lean, Proof/TilePay.lean: the tile's eight-plus-one products; the value a grid point
    stores is the network of its blocks.
  * Proof/Blocks.lean: the blocks are rows `1024 t …` of the batch, the masks and the result, the
    network is row by row, and the 64 blocks tile the result.
  * Proof/RefNet.lean: the reference, operation by operation, is the network.
  * Proof/Whole.lean: the result array as one function of the argument arrays.

  The three frames: each kernel's from its frame module, the reference's from its run.
-/
import proofs.«132136_j61984968016173_1_alg».proof.Defs
import proofs.«132136_j61984968016173_1_alg».proof.Proof.Gen.Kernel
import proofs.«132136_j61984968016173_1_alg».proof.Proof.Gen.Kernel.Skeleton
import proofs.«132136_j61984968016173_1_alg».proof.Proof.Gen.Kernel.Launch
import proofs.«132136_j61984968016173_1_alg».proof.Proof.Gen.Kernel.Points
import proofs.«132136_j61984968016173_1_alg».proof.Proof.KernelFrame
import proofs.«132136_j61984968016173_1_alg».proof.Proof.Gen.KernelIdeal
import proofs.«132136_j61984968016173_1_alg».proof.Proof.Gen.KernelIdeal.Skeleton
import proofs.«132136_j61984968016173_1_alg».proof.Proof.Gen.KernelIdeal.Launch
import proofs.«132136_j61984968016173_1_alg».proof.Proof.Gen.KernelIdeal.Points
import proofs.«132136_j61984968016173_1_alg».proof.Proof.KernelIdealFrame
import proofs.«132136_j61984968016173_1_alg».proof.Proof.KernelIdealValue
import proofs.«132136_j61984968016173_1_alg».proof.Proof.Gen.ReferenceIdeal
import proofs.«132136_j61984968016173_1_alg».proof.Proof.Gen.ReferenceIdeal.Run
import proofs.«132136_j61984968016173_1_alg».proof.Proof.Gen.ReferenceIdeal.Read
import proofs.«132136_j61984968016173_1_alg».proof.Proof.Gen.Pre_finite_inputs
import proofs.«132136_j61984968016173_1_alg».proof.Proof.Blocks
import proofs.«132136_j61984968016173_1_alg».proof.Proof.RefNet
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result array is the whole-array network of its arguments. -/
theorem reference_whole
    (x0 : FVec Ideal Cert.ReferenceIdeal.S65536x256 .f32) (x1 : FVec Ideal Cert.ReferenceIdeal.S256x128 .f32) (x2 : FVec Ideal Cert.ReferenceIdeal.S128 .f32)
    (x3 : FVec Ideal Cert.ReferenceIdeal.S128x256 .f32) (x4 : FVec Ideal Cert.ReferenceIdeal.S256 .f32) (x5 : FVec Ideal Cert.ReferenceIdeal.S256x512 .f32)
    (x6 : FVec Ideal Cert.ReferenceIdeal.S512 .f32) (x7 : FVec Ideal Cert.ReferenceIdeal.S512x256 .f32) (x8 : FVec Ideal Cert.ReferenceIdeal.S256 .f32)
    (x9 : FVec Ideal Cert.ReferenceIdeal.S256x128 .f32) (x10 : FVec Ideal Cert.ReferenceIdeal.S128 .f32) (x11 : FVec Ideal Cert.ReferenceIdeal.S128x64 .f32)
    (x12 : FVec Ideal Cert.ReferenceIdeal.S64 .f32) (x13 : FVec Ideal Cert.ReferenceIdeal.S64x32 .f32) (x14 : FVec Ideal Cert.ReferenceIdeal.S32 .f32)
    (x15 : FVec Ideal Cert.ReferenceIdeal.S32x16 .f32) (x16 : FVec Ideal Cert.ReferenceIdeal.S16 .f32) (x17 : FVec Ideal Cert.ReferenceIdeal.S16x10 .f32)
    (x18 : FVec Ideal Cert.ReferenceIdeal.S10 .f32) (x19 : FVec Ideal Cert.ReferenceIdeal.S65536x128 .f32) (x20 : FVec Ideal Cert.ReferenceIdeal.S65536x256 .f32)
    (x21 : FVec Ideal Cert.ReferenceIdeal.S65536x512 .f32) (x22 : FVec Ideal Cert.ReferenceIdeal.S65536x256 .f32) (x23 : FVec Ideal Cert.ReferenceIdeal.S65536x128 .f32)
    (x24 : FVec Ideal Cert.ReferenceIdeal.S65536x64 .f32) (x25 : FVec Ideal Cert.ReferenceIdeal.S65536x32 .f32) (x26 : FVec Ideal Cert.ReferenceIdeal.S65536x16 .f32) :
    Cert.ReferenceIdeal.Read.val_main_v51 (F := Ideal) x0 x1 x2 x3 x4 x5 x6 x7 x8 x9 x10 x11 x12 x13 x14 x15 x16 x17 x18 x19 x20 x21 x22 x23 x24 x25 x26
      = Cert.MLP.whole x0 x1 x2 x3 x4 x5 x6 x7 x8 x9 x10 x11 x12 x13 x14 x15 x16 x17 x18 x19 x20 x21 x22 x23 x24 x25 x26 := by
  funext i
  refine (congrArg (Cert.ReferenceIdeal.Read.val_main_v51 (F := Ideal) x0 x1 x2 x3 x4 x5 x6 x7 x8 x9 x10 x11 x12 x13 x14 x15 x16 x17 x18 x19 x20 x21 x22 x23 x24 x25 x26)
    (eq_ix2 (n0 := 65536) (n1 := 10) i)).trans ?_
  exact Cert.ReferenceIdeal.RefNet.result_ix2 x0 x1 x2 x3 x4 x5 x6 x7 x8 x9 x10 x11 x12 x13 x14 x15 x16 x17 x18 x19 x20 x21 x22 x23 x24 x25 x26 (i 0) (i 1)

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, the kernel's result array (the network of its
    arguments, tile by tile) and the reference's (the same network, operation by operation) are
    equal. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  refine (reference_whole
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8))
    (m' ((c.tc : Thread Cert.ReferenceIdeal.nD Cert.ReferenceIdeal.τ).loc Cert.ReferenceIdeal.main_arg9))
    (m' ((c.tc : Thread Cert.ReferenceIdeal.nD Cert.ReferenceIdeal.τ).loc Cert.ReferenceIdeal.main_arg10))
    (m' ((c.tc : Thread Cert.ReferenceIdeal.nD Cert.ReferenceIdeal.τ).loc Cert.ReferenceIdeal.main_arg11))
    (m' ((c.tc : Thread Cert.ReferenceIdeal.nD Cert.ReferenceIdeal.τ).loc Cert.ReferenceIdeal.main_arg12))
    (m' ((c.tc : Thread Cert.ReferenceIdeal.nD Cert.ReferenceIdeal.τ).loc Cert.ReferenceIdeal.main_arg13))
    (m' ((c.tc : Thread Cert.ReferenceIdeal.nD Cert.ReferenceIdeal.τ).loc Cert.ReferenceIdeal.main_arg14))
    (m' ((c.tc : Thread Cert.ReferenceIdeal.nD Cert.ReferenceIdeal.τ).loc Cert.ReferenceIdeal.main_arg15))
    (m' ((c.tc : Thread Cert.ReferenceIdeal.nD Cert.ReferenceIdeal.τ).loc Cert.ReferenceIdeal.main_arg16))
    (m' ((c.tc : Thread Cert.ReferenceIdeal.nD Cert.ReferenceIdeal.τ).loc Cert.ReferenceIdeal.main_arg17))
    (m' ((c.tc : Thread Cert.ReferenceIdeal.nD Cert.ReferenceIdeal.τ).loc Cert.ReferenceIdeal.main_arg18))
    (m' ((c.tc : Thread Cert.ReferenceIdeal.nD Cert.ReferenceIdeal.τ).loc Cert.ReferenceIdeal.main_arg19))
    (m' ((c.tc : Thread Cert.ReferenceIdeal.nD Cert.ReferenceIdeal.τ).loc Cert.ReferenceIdeal.main_arg20))
    (m' ((c.tc : Thread Cert.ReferenceIdeal.nD Cert.ReferenceIdeal.τ).loc Cert.ReferenceIdeal.main_arg21))
    (m' ((c.tc : Thread Cert.ReferenceIdeal.nD Cert.ReferenceIdeal.τ).loc Cert.ReferenceIdeal.main_arg22))
    (m' ((c.tc : Thread Cert.ReferenceIdeal.nD Cert.ReferenceIdeal.τ).loc Cert.ReferenceIdeal.main_arg23))
    (m' ((c.tc : Thread Cert.ReferenceIdeal.nD Cert.ReferenceIdeal.τ).loc Cert.ReferenceIdeal.main_arg24))
    (m' ((c.tc : Thread Cert.ReferenceIdeal.nD Cert.ReferenceIdeal.τ).loc Cert.ReferenceIdeal.main_arg25))
    (m' ((c.tc : Thread Cert.ReferenceIdeal.nD Cert.ReferenceIdeal.τ).loc Cert.ReferenceIdeal.main_arg26))).trans ?_
  obtain ⟨h0, h1, h2, h3, h4, h5, h6, h7, h8, h9, h10, h11, h12, h13, h14, h15, h16, h17, h18, h19, h20, h21, h22, h23, h24, h25, h26⟩ := hagree c
  rw [h0, h1, h2, h3, h4, h5, h6, h7, h8, h9, h10, h11, h12, h13, h14, h15, h16, h17, h18, h19, h20, h21, h22, h23, h24, h25, h26]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
